-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384x3 : Shape := ⟨3, ![1, 16384, 3]⟩
abbrev S_ : Shape := ⟨0, ![]⟩

class Facts : Prop where
  bcast_S_S1x16384x3 : S_.BroadcastsInDim S1x16384x3 (![] : Fin 0 → Fin S1x16384x3.rank)
  reducesTo_S1x16384x3_S_d0_1_2 : S1x16384x3.ReducesTo [0, 1, 2] S_
  h_S_ : 0 < S_.numel

variable [Facts]

def fn {F : FTy → Type} [FloatOps F] (main_arg0 : FVec F S1x16384x3 .f32) (main_arg1 : FVec F S1x16384x3 .f32) : IVec S_ 1 :=
  let main_v0 : FVec F S1x16384x3 .f32 := Host.absf main_arg0
  let main_cst : FVec F S_ .f32 := constant S_ .f32 0x7F800000#32
  let main_v1 : FVec F S1x16384x3 .f32 := broadcastInDim S1x16384x3 ![] bcast_S_S1x16384x3 main_cst
  let main_v2 : IVec S1x16384x3 1 := cmpf .olt main_v0 main_v1
  let main_c : IVec S_ 1 := constantI S_ 1 1#1
  let main_v3 : IVec S_ 1 := (fun x v => Host.reduce IntOp.andi x v reducesTo_S1x16384x3_S_d0_1_2 h_S_) main_v2 main_c
  let main_v4 : FVec F S1x16384x3 .f32 := Host.absf main_arg1
  let main_cst_0 : FVec F S_ .f32 := constant S_ .f32 0x7F800000#32
  let main_v5 : FVec F S1x16384x3 .f32 := broadcastInDim S1x16384x3 ![] bcast_S_S1x16384x3 main_cst_0
  let main_v6 : IVec S1x16384x3 1 := cmpf .olt main_v4 main_v5
  let main_c_1 : IVec S_ 1 := constantI S_ 1 1#1
  let main_v7 : IVec S_ 1 := (fun x v => Host.reduce IntOp.andi x v reducesTo_S1x16384x3_S_d0_1_2 h_S_) main_v6 main_c_1
  let main_v8 : IVec S_ 1 := andi main_v3 main_v7
  main_v8
-- ==== Kernel.lean ====
abbrev S1x16384x3 : Shape := ⟨3, ![1, 16384, 3]⟩
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S1024x3 : Shape := ⟨2, ![1024, 3]⟩
abbrev S1024x1 : Shape := ⟨2, ![1024, 1]⟩
abbrev S1x1024 : Shape := ⟨2, ![1, 1024]⟩
abbrev S3x1024 : Shape := ⟨2, ![3, 1024]⟩
abbrev S1024x1024 : Shape := ⟨2, ![1024, 1024]⟩
abbrev S1024 : Shape := ⟨1, ![1024]⟩

abbrev nBuf : Space → Nat
  | .hbm => 25
  | .vmem => 22
  | .smem => 0
  | _ => 0

abbrev bufTy : (tb : Table) → Fin (tcTables nBuf tb) → BufTy
  | .hbm, ⟨0, _⟩ => ⟨S1x16384x3, .f32⟩
  | .hbm, ⟨1, _⟩ => ⟨S1x16384x3, .f32⟩
  | .hbm, ⟨2, _⟩ => ⟨S16384x3, .f32⟩
  | .hbm, ⟨3, _⟩ => ⟨S16384x3, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x3, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x1, .f32⟩
  | .hbm, ⟨13, _⟩ => ⟨S16384x1, .f32⟩
  | .hbm, ⟨14, _⟩ => ⟨S1x16384, .f32⟩
  | .hbm, ⟨15, _⟩ => ⟨S16384x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x3, .f32⟩
  | .local _ .vmem, ⟨12, _⟩ => ⟨S1024x3, .f32⟩
  | .local _ .vmem, ⟨13, _⟩ => ⟨S1024x3, .f32⟩
  | .local _ .vmem, ⟨14, _⟩ => ⟨S1024x3, .f32⟩
  | .local _ .vmem, ⟨15, _⟩ => ⟨S1024x1, .f32⟩
  | .local _ .vmem, ⟨16, _⟩ => ⟨S1024x1, .f32⟩
  | .local _ .vmem, ⟨17, _⟩ => ⟨S1x1024, .f32⟩
  | .local _ .vmem, ⟨18, _⟩ => ⟨S1x1024, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | _, _ => ⟨S1x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 16], ![false, false]⟩

def k1_cond3 (i : grid1.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_13 : BitVec 32 := 0#32
  let v30 : BitVec 1 := Scalar.cmpi .ne v29 c0_i32_13
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S1x16384x3_S16384x3 : S1x16384x3.ShapeCasts S16384x3
  reducesTo_S16384x3_S16384_d1 : S16384x3.ReducesTo [1] S16384
  h_S_ : 0 < S_.numel
  shapeCasts_S16384_S16384x1 : S16384.ShapeCasts S16384x1
  shapeCasts_S16384_S1x16384 : S16384.ShapeCasts S1x16384
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  bitsLt_bf16_f32 : FTy.bits .bf16 < FTy.bits .f32
  transposes_S1024x3_p1_0_S3x1024 : S1024x3.Transposes [1, 0] S3x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S16384x1_S_d0_1 : S16384x1.ReducesTo [0, 1] S_
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S16384x3.size a
  hwx1_0 : ∀ i : grid1.Coords, EltTy.bits .f32 = 32 ∨ (Rect.block (s := S16384x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S16384x3.size a
  hwx1_1 : ∀ i : grid1.Coords, EltTy.bits .f32 = 32 ∨ (Rect.block (s := S16384x3) S1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x16384.size a
  hwx1_3 : ∀ i : grid1.Coords, EltTy.bits .f32 = 32 ∨ (Rect.block (s := S1x16384) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S16384x1.size a
  hwx1_4 : ∀ i : grid1.Coords, EltTy.bits .f32 = 32 ∨ (Rect.block (s := S16384x1) S1024x1.size (cc1_transform_4 i) (hinb1_4 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_v0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

abbrev win1_0 : Pipeline.Window sig grid1 :=
  Pipeline.Window.ofSpec (Memref.whole main_v1) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

class Facts : Prop extends Facts₀ where

variable [Facts]
-- ==== ReferenceIdeal.lean ====
abbrev S1x16384x3 : Shape := ⟨3, ![1, 16384, 3]⟩
abbrev S16384x3 : Shape := ⟨2, ![16384, 3]⟩
abbrev S_ : Shape := ⟨0, ![]⟩
abbrev S16384 : Shape := ⟨1, ![16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 36
  | .vmem => 0
  | .smem => 0
  | _ => 0

abbrev bufTy : (tb : Table) → Fin (tcTables nBuf tb) → BufTy
  | .hbm, ⟨0, _⟩ => ⟨S1x16384x3, .f32⟩
  | .hbm, ⟨1, _⟩ => ⟨S1x16384x3, .f32⟩
  | .hbm, ⟨2, _⟩ => ⟨S16384x3, .f32⟩
  | .hbm, ⟨3, _⟩ => ⟨S16384x3, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x3, .f32⟩
  | .hbm, ⟨8, _⟩ => ⟨S_, .f32⟩
  | .hbm, ⟨9, _⟩ => ⟨S16384, .f32⟩
  | .hbm, ⟨10, _⟩ => ⟨S16384x16384, .f32⟩
  | .hbm, ⟨11, _⟩ => ⟨S16384x1, .f32⟩
  | .hbm, ⟨12, _⟩ => ⟨S1x16384, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S1x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  shapeCasts_S1x16384x3_S16384x3 : S1x16384x3.ShapeCasts S16384x3
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  reducesTo_S16384_S_d0 : S16384.ReducesTo [0] S_
  dot_S16384x3_S16384x3_S16384x16384_1_1_0_0_n_n_wf : DotDims.WF S16384x3 S16384x3 S16384x16384 [1] [1] [0] [0] [] []

variable [Facts₀]

def dot_S16384x3_S16384x3_S16384x16384_1_1_0_0_n_n : DotDims S16384x3 S16384x3 S16384x16384 where
  lhsContracting := [1]
  rhsContracting := [1]
  lhsNonContracting := [0]
  rhsNonContracting := [0]
  lhsBatch := []
  rhsBatch := []
  wf := dot_S16384x3_S16384x3_S16384x16384_1_1_0_0_n_n_wf

class Facts : Prop extends Facts₀ where

variable [Facts]
-- ==== Proof.Kernel.Cases0.lean ====
/-
  Region 0's kernel body, case by case. The body branches three times on the second grid coordinate j:
  at j = 0 it stores the block's row minima into the scratch; at j ≠ 0 it stores the minimum of the scratch and
  the row minima; at j = 15 it also copies the scratch into the output block.
-/
import proofs.«141939_j80676665688371_1_alg».proof.Proof.Gen.Kernel.Launch
import proofs.«141939_j80676665688371_1_alg».proof.Proof.Gen.Kernel.Skeleton
import proofs.«141939_j80676665688371_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of every access of the body: zero on both axes. -/
theorem zeroOff0 : (![0, 0] : Fin 2 → Nat) = fun _ => 0 := by funext a; fin_cases a <;> rfl

/-- The condition of the first branch: j = 0. -/
abbrev isFirst0 (i : grid0.Coords) : Prop :=
  Scalar.cmpi .ne (Scalar.extui (Scalar.cmpi .eq (BitVec.ofNat 32 (i 1).val) 0#32)) 0#32 = 1#1
/-- The condition of the second branch: j ≠ 0. -/
abbrev isLater0 (i : grid0.Coords) : Prop :=
  Scalar.cmpi .ne (Scalar.extui (Scalar.cmpi .ne (BitVec.ofNat 32 (i 1).val) 0#32)) 0#32 = 1#1
/-- The condition of the third branch: j = 15. -/
abbrev isLast0 (i : grid0.Coords) : Prop := k0_cond3 i = 1#1

set_option maxHeartbeats 2000000 in
/-- At j = 0: the scratch, whatever it held, ends at the block's row minima; everything else is as it was. -/
theorem runA0 (c : Dev nD) (E : Set ℕ) (i : grid0.Coords) (h1 : isFirst0 i) (h2 : ¬isLater0 i) (h3 : ¬isLast0 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare y6 ∗ owns (c : Thread nD τ) a7 fullShare (k0_pay2 x0 x1 x2 x3)) -∗ K ⟨⟩))
      ⊢ wp frame (wpE (defs₀ (F := F)) Variants.none c none) E (cc0__row_min_kernel i a2 ha2 a3 ha3 a4 ha4 a5 ha5 a6 ha6 a7 ha7) K := by
  simp only [cc0__row_min_kernel_eq_skeleton]; unfold cc0__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  try sl_unfold_words
  rw [View.read_writes_eq_canon _ _ _ (fun y => ⟨_, List.mem_singleton_self _, View.mem_set_unit_zero zeroOff0 inb_S1024x1_S1024x1_0_0 y⟩),
    View.canon_unit_zero zeroOff0]
  simp only [View.readAt_eq_ld, hf2, hf3, hf4, hf5, hf7, View.readCov_unit_zero (S := S1024x1) _ zeroOff0, View.ld_unit_zero (S := S1024x3) zeroOff0,
    View.ld_unit_zero (S := S1024x1) zeroOff0, View.ld_unit_zero (S := S1x1024) zeroOff0]
  all_goals exact View.readCov_unit_zero (S := S1024x1) _ zeroOff0 _ _

set_option maxHeartbeats 2000000 in
/-- At 0 < j < 15: the scratch ends at the minimum of what it held and the block's row minima. -/
theorem runB0 (c : Dev nD) (E : Set ℕ) (i : grid0.Coords) (h1 : ¬isFirst0 i) (h2 : isLater0 i) (h3 : ¬isLast0 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare y6 ∗ owns (c : Thread nD τ) a7 fullShare (k0_pay3 x0 x1 x2 x3 y7)) -∗ K ⟨⟩))
      ⊢ wp frame (wpE (defs₀ (F := F)) Variants.none c none) E (cc0__row_min_kernel i a2 ha2 a3 ha3 a4 ha4 a5 ha5 a6 ha6 a7 ha7) K := by
  simp only [cc0__row_min_kernel_eq_skeleton]; unfold cc0__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  try sl_unfold_words
  rw [View.read_writes_eq_canon _ _ _ (fun y => ⟨_, List.mem_singleton_self _, View.mem_set_unit_zero zeroOff0 inb_S1024x1_S1024x1_0_0 y⟩),
    View.canon_unit_zero zeroOff0]
  simp only [View.readAt_eq_ld, hf2, hf3, hf4, hf5, hf7, View.readCov_unit_zero (S := S1024x1) _ zeroOff0, View.ld_unit_zero (S := S1024x3) zeroOff0,
    View.ld_unit_zero (S := S1024x1) zeroOff0, View.ld_unit_zero (S := S1x1024) zeroOff0]
  all_goals exact View.readCov_unit_zero (S := S1024x1) _ zeroOff0 _ _

set_option maxHeartbeats 2000000 in
/-- At j = 15: the scratch ends as at the points before, and the output block holds the same. -/
theorem runC0 (c : Dev nD) (E : Set ℕ) (i : grid0.Coords) (h1 : ¬isFirst0 i) (h2 : isLater0 i) (h3 : isLast0 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare (k0_pay3 x0 x1 x2 x3 y7) ∗ owns (c : Thread nD τ) a7 fullShare (k0_pay3 x0 x1 x2 x3 y7)) -∗ K ⟨⟩))
      ⊢ wp frame (wpE (defs₀ (F := F)) Variants.none c none) E (cc0__row_min_kernel i a2 ha2 a3 ha3 a4 ha4 a5 ha5 a6 ha6 a7 ha7) K := by
  simp only [cc0__row_min_kernel_eq_skeleton]; unfold cc0__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (fun y => ⟨_, List.mem_singleton_self _, View.mem_set_unit_zero zeroOff0 inb_S1024x1_S1024x1_0_0 y⟩),
      View.canon_unit_zero zeroOff0]
    simp only [View.readAt_eq_ld, hf2, hf3, hf4, hf5, hf7, View.readCov_unit_zero (S := S1024x1) _ zeroOff0, View.ld_unit_zero (S := S1024x3) zeroOff0,
      View.ld_unit_zero (S := S1024x1) zeroOff0, View.ld_unit_zero (S := S1x1024) zeroOff0]
    all_goals exact View.readCov_unit_zero (S := S1024x1) _ zeroOff0 _ _
  iexists _; isplitr
  swap; · iexact H7
  ipureintro
  try sl_unfold_words
  rw [View.read_writes_eq_canon _ _ _ (fun y => ⟨_, List.mem_singleton_self _, View.mem_set_unit_zero zeroOff0 inb_S1024x1_S1024x1_0_0 y⟩),
    View.canon_unit_zero zeroOff0]
  simp only [View.readAt_eq_ld, hf2, hf3, hf4, hf5, hf7, View.readCov_unit_zero (S := S1024x1) _ zeroOff0, View.ld_unit_zero (S := S1024x3) zeroOff0,
    View.ld_unit_zero (S := S1024x1) zeroOff0, View.ld_unit_zero (S := S1x1024) zeroOff0]
  all_goals exact View.readCov_unit_zero (S := S1024x1) _ zeroOff0 _ _

end Cert.Kernel.Hand

end
-- ==== Proof.Kernel.Region0.lean ====
/-
  Region 0's proof data. At point t = 16·i + j the body reads block i of the first point set and of its squared
  norms, block j of the second point set and of its squared norms; the scratch after the point holds, row by row,
  the minimum over the blocks 0 … j of the clamped squared distances; the output block is written at j = 15 only.
-/
import proofs.«141939_j80676665688371_1_alg».proof.Proof.Gen.Kernel.Launch
import proofs.«141939_j80676665688371_1_alg».proof.Proof.Gen.Kernel.Skeleton
import proofs.«141939_j80676665688371_1_alg».proof.Proof.Gen.Kernel.Points
import proofs.«141939_j80676665688371_1_alg».proof.Proof.Kernel.Cases0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which case a point is in, and where the output window is idle -/

theorem hFirst0 : ∀ t : Fin cfg0.N, isFirst0 (grid0.coords t) ↔ t.val % 16 = 0 :=
  (by decide +kernel : ∀ t : Fin grid0.N, isFirst0 (grid0.coords t) ↔ t.val % 16 = 0)
theorem hLater0 : ∀ t : Fin cfg0.N, isLater0 (grid0.coords t) ↔ t.val % 16 ≠ 0 :=
  (by decide +kernel : ∀ t : Fin grid0.N, isLater0 (grid0.coords t) ↔ t.val % 16 ≠ 0)
theorem hLast0 : ∀ t : Fin cfg0.N, isLast0 (grid0.coords t) ↔ t.val % 16 = 15 :=
  (by decide +kernel : ∀ t : Fin grid0.N, isLast0 (grid0.coords t) ↔ t.val % 16 = 15)

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
/-- The output window is idle at every point but the last of a row of the grid, -/
theorem idle0_4 : ∀ t : Fin cfg0.N, t.val % 16 ≠ 15 → cfg0.idle 4 (grid0.coords t) = true :=
  (by decide +kernel : ∀ t : Fin grid0.N, t.val % 16 ≠ 15 → cfg0.idle 4 (grid0.coords t) = true)
/-- live there, -/
theorem live0_4 : ∀ t : Fin cfg0.N, t.val % 16 = 15 → cfg0.idle 4 (grid0.coords t) = false :=
  (by decide +kernel : ∀ t : Fin grid0.N, t.val % 16 = 15 → cfg0.idle 4 (grid0.coords t) = false)
/-- and written back there only. -/
theorem noFlush0_4 (t : Fin cfg0.N) (h : t.val % 16 ≠ 15) : (cfg0.win 4).flush t = false := by
  cases hf : (cfg0.win 4).flush t
  · rfl
  · exact absurd ((flush0_4 t).mp hf) h

/-- The scratch operand: a whole scoped buffer of the kernel's own. -/
abbrev scM0 : Memref sig .tc .vmem S1024x1 .f32 := Memref.whole cc0_scratch0

/-- The core's scoped buffers that are neither a staging buffer of this call nor its scratch, each whole at some contents. -/
def rest0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- What the launch hands the region: the scratch at some contents, the other scoped buffers, the generator register. -/
theorem PhiA0_eq (c : Dev nD) :
    (Pipeline.ΦA spec0 c : sProp 𝕄)
      = iprop(((∃ d, owns (c : Thread nD τ) scM0 fullShare d) ∗ rest0 c) ∗ ∃ r, prngReg c r) := by
  unfold Pipeline.ΦA Pipeline.scopedRest rest0
  rw [bigSep_erase (i := cc0_scratch0) (by decide)]
  simp only [scM0, owns_whole]
  rfl

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The scratch, point by point -/

/-- What the scratch holds after point `n`: at the first point of a row of the grid the block's row minima, at the others the
    minimum of what the point before left and the block's row minima. -/
def acc0 (c : Dev nD) : (n : ℕ) → n < cfg0.N → Vec F S1024x1 .f32
  | 0, h => k0_pay2 (iblk0 V c 0 ⟨0, h⟩) (iblk0 V c 1 ⟨0, h⟩) (iblk0 V c 2 ⟨0, h⟩) (iblk0 V c 3 ⟨0, h⟩)
  | n + 1, h =>
    if (n + 1) % 16 = 0 then k0_pay2 (iblk0 V c 0 ⟨n + 1, h⟩) (iblk0 V c 1 ⟨n + 1, h⟩) (iblk0 V c 2 ⟨n + 1, h⟩) (iblk0 V c 3 ⟨n + 1, h⟩)
    else k0_pay3 (iblk0 V c 0 ⟨n + 1, h⟩) (iblk0 V c 1 ⟨n + 1, h⟩) (iblk0 V c 2 ⟨n + 1, h⟩) (iblk0 V c 3 ⟨n + 1, h⟩) (acc0 c n (Nat.lt_of_succ_lt h))

theorem acc0_first (c : Dev nD) (t : Fin cfg0.N) (h : t.val % 16 = 0) :
    acc0 V c t.val t.isLt = k0_pay2 (iblk0 V c 0 t) (iblk0 V c 1 t) (iblk0 V c 2 t) (iblk0 V c 3 t) := by
  obtain ⟨n, hn⟩ := t
  cases n with
  | zero => rfl
  | succ n => exact if_pos h

theorem acc0_later (c : Dev nD) (t : Fin cfg0.N) (h : t.val % 16 ≠ 0) :
    acc0 V c t.val t.isLt = k0_pay3 (iblk0 V c 0 t) (iblk0 V c 1 t) (iblk0 V c 2 t) (iblk0 V c 3 t) (acc0 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point what the launch hands over; afterwards the scratch at
    what the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ ∃ r, prngReg c r)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ ∃ r, prngReg c r) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ ∃ r, prngReg c r) := by
  cases n with
  | zero => exact absurd rfl hz
  | succ n => rfl

/-! ## The proof data -/

/-- The proof data of pipeline 0 on core `c`: the arrays as the region finds them; after the body at point `t` each input's
    buffer at its block and the output's at the scratch's contents there; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0 V c t.val t.isLt := by dsimp only [dat0]

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
/-- The body at any point: the inputs' buffers hold their blocks; `t mod 16` says which case the point is in; the invariant
    hands the body the scratch (at anything before the first point, else at what the point before left) and takes it back at
    this point's contents; the output buffer is handed back untouched except at the last point of a row. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare (iblk0 V c 0 t) from by
    unfold Dat.leavesExact; rw [live0_0 t, after0_0]]
  rw [show (dat0 V c).leavesExact 1 t = owns (c : Thread nD τ) (st0_1 t) fullShare (iblk0 V c 1 t) from by
    unfold Dat.leavesExact; rw [live0_1 t, after0_1]]
  rw [show (dat0 V c).leavesExact 2 t = owns (c : Thread nD τ) (st0_2 t) fullShare (iblk0 V c 2 t) from by
    unfold Dat.leavesExact; rw [live0_2 t, after0_2]]
  rw [show (dat0 V c).leavesExact 3 t = owns (c : Thread nD τ) (st0_3 t) fullShare (iblk0 V c 3 t) from by
    unfold Dat.leavesExact; rw [live0_3 t, after0_3]]
  by_cases h0 : t.val % 16 = 0
  · -- the first point of a row
    have c1 := (hFirst0 t).mpr h0
    have c2 : ¬isLater0 (grid0.coords t) := fun h => (hLater0 t).mp h h0
    have c3 : ¬isLast0 (grid0.coords t) := fun h => by have := (hLast0 t).mp h; omega
    rw [Dat.leavesExact_idle (dat0 V c) 4 t (idle0_4 t (by omega)) (noFlush0_4 t (by omega)), acc0_first V c t h0]
    by_cases hz : t.val = 0
    · rw [Phi0_castSucc V c t, PhiS0_zero V c _ _ hz, PhiA0_eq]
      iintro ⟨⟨⟨⟨%y7, HS⟩, Hrest⟩, Hg⟩, Ho, ⟨%d0, H0⟩, ⟨%d1, H1⟩, ⟨%d2, H2⟩, ⟨%d3, H3⟩, ⟨%d4, H4⟩⟩
      iapply (runA0 c Set.univ (grid0.coords t) c1 c2 c3 _ _ _ _ _ _ _ _ _ _ _ _
        (iblk0 V c 0 t) (iblk0 V c 1 t) (iblk0 V c 2 t) (iblk0 V c 3 t) ((dat0 V c).before 4 t d4) y7 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [Phi0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (runA0 c Set.univ (grid0.coords t) c1 c2 c3 _ _ _ _ _ _ _ _ _ _ _ _
        (iblk0 V c 0 t) (iblk0 V c 1 t) (iblk0 V c 2 t) (iblk0 V c 3 t) ((dat0 V c).before 4 t d4) (acc0 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have c1 : ¬isFirst0 (grid0.coords t) := fun h => h0 ((hFirst0 t).mp h)
    have c2 := (hLater0 t).mpr h0
    have hz : t.val ≠ 0 := fun h => h0 (by rw [h])
    rw [Phi0_castSucc V c t, PhiS0_pos V c _ _ hz, acc0_later V c t h0]
    by_cases h15 : t.val % 16 = 15
    · -- the last point of a row
      have c3 := (hLast0 t).mpr h15
      rw [show (dat0 V c).leavesExact 4 t = owns (c : Thread nD τ) (st0_4 t) fullShare ((dat0 V c).after 4 t) from by
        unfold Dat.leavesExact; rw [live0_4 t h15], after0_4, acc0_later V c t h0]
      iintro ⟨⟨⟨HS, Hrest⟩, Hg⟩, Ho, ⟨%d0, H0⟩, ⟨%d1, H1⟩, ⟨%d2, H2⟩, ⟨%d3, H3⟩, ⟨%d4, H4⟩⟩
      iapply (runC0 c Set.univ (grid0.coords t) c1 c2 c3 _ _ _ _ _ _ _ _ _ _ _ _
        (iblk0 V c 0 t) (iblk0 V c 1 t) (iblk0 V c 2 t) (iblk0 V c 3 t) ((dat0 V c).before 4 t d4) (acc0 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · -- a point inside a row
      have c3 : ¬isLast0 (grid0.coords t) := fun h => h15 ((hLast0 t).mp h)
      rw [Dat.leavesExact_idle (dat0 V c) 4 t (idle0_4 t h15) (noFlush0_4 t h15)]
      iintro ⟨⟨⟨HS, Hrest⟩, Hg⟩, Ho, ⟨%d0, H0⟩, ⟨%d1, H1⟩, ⟨%d2, H2⟩, ⟨%d3, H3⟩, ⟨%d4, H4⟩⟩
      iapply (runB0 c Set.univ (grid0.coords t) c1 c2 c3 _ _ _ _ _ _ _ _ _ _ _ _
        (iblk0 V c 0 t) (iblk0 V c 1 t) (iblk0 V c 2 t) (iblk0 V c 3 t) ((dat0 V c).before 4 t d4) (acc0 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨⟨HS, Hrest⟩, Hg⟩
  isplitl [HS Hrest]
  · isplitl [HS]
    · iexists _; iexact HS
    iexact Hrest
  iexact Hg

end Region

end Cert.Kernel.Hand

end
-- ==== Proof.Kernel.Cases1.lean ====
/-
  Region 1's kernel body, case by case. The body branches three times on the second grid coordinate j:
  at j = 0 it stores the block's row minima into the scratch; at j ≠ 0 it stores the minimum of the scratch and
  the row minima; at j = 15 it also copies the scratch into the output block.
-/
import proofs.«141939_j80676665688371_1_alg».proof.Proof.Gen.Kernel.Launch
import proofs.«141939_j80676665688371_1_alg».proof.Proof.Gen.Kernel.Skeleton
import proofs.«141939_j80676665688371_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of every access of the body: zero on both axes. -/
theorem zeroOff1 : (![0, 0] : Fin 2 → Nat) = fun _ => 0 := by funext a; fin_cases a <;> rfl

/-- The condition of the first branch: j = 0. -/
abbrev isFirst1 (i : grid1.Coords) : Prop :=
  Scalar.cmpi .ne (Scalar.extui (Scalar.cmpi .eq (BitVec.ofNat 32 (i 1).val) 0#32)) 0#32 = 1#1
/-- The condition of the second branch: j ≠ 0. -/
abbrev isLater1 (i : grid1.Coords) : Prop :=
  Scalar.cmpi .ne (Scalar.extui (Scalar.cmpi .ne (BitVec.ofNat 32 (i 1).val) 0#32)) 0#32 = 1#1
/-- The condition of the third branch: j = 15. -/
abbrev isLast1 (i : grid1.Coords) : Prop := k1_cond3 i = 1#1

set_option maxHeartbeats 2000000 in
/-- At j = 0: the scratch, whatever it held, ends at the block's row minima; everything else is as it was. -/
theorem runA1 (c : Dev nD) (E : Set ℕ) (i : grid1.Coords) (h1 : isFirst1 i) (h2 : ¬isLater1 i) (h3 : ¬isLast1 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare y6 ∗ owns (c : Thread nD τ) a7 fullShare (k1_pay2 x0 x1 x2 x3)) -∗ K ⟨⟩))
      ⊢ wp frame (wpE (defs₀ (F := F)) Variants.none c none) E (cc1__row_min_kernel i a2 ha2 a3 ha3 a4 ha4 a5 ha5 a6 ha6 a7 ha7) K := by
  simp only [cc1__row_min_kernel_eq_skeleton]; unfold cc1__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  try sl_unfold_words
  rw [View.read_writes_eq_canon _ _ _ (fun y => ⟨_, List.mem_singleton_self _, View.mem_set_unit_zero zeroOff1 inb_S1024x1_S1024x1_0_0 y⟩),
    View.canon_unit_zero zeroOff1]
  simp only [View.readAt_eq_ld, hf2, hf3, hf4, hf5, hf7, View.readCov_unit_zero (S := S1024x1) _ zeroOff1, View.ld_unit_zero (S := S1024x3) zeroOff1,
    View.ld_unit_zero (S := S1024x1) zeroOff1, View.ld_unit_zero (S := S1x1024) zeroOff1]
  all_goals exact View.readCov_unit_zero (S := S1024x1) _ zeroOff1 _ _

set_option maxHeartbeats 2000000 in
/-- At 0 < j < 15: the scratch ends at the minimum of what it held and the block's row minima. -/
theorem runB1 (c : Dev nD) (E : Set ℕ) (i : grid1.Coords) (h1 : ¬isFirst1 i) (h2 : isLater1 i) (h3 : ¬isLast1 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare y6 ∗ owns (c : Thread nD τ) a7 fullShare (k1_pay3 x0 x1 x2 x3 y7)) -∗ K ⟨⟩))
      ⊢ wp frame (wpE (defs₀ (F := F)) Variants.none c none) E (cc1__row_min_kernel i a2 ha2 a3 ha3 a4 ha4 a5 ha5 a6 ha6 a7 ha7) K := by
  simp only [cc1__row_min_kernel_eq_skeleton]; unfold cc1__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  try sl_unfold_words
  rw [View.read_writes_eq_canon _ _ _ (fun y => ⟨_, List.mem_singleton_self _, View.mem_set_unit_zero zeroOff1 inb_S1024x1_S1024x1_0_0 y⟩),
    View.canon_unit_zero zeroOff1]
  simp only [View.readAt_eq_ld, hf2, hf3, hf4, hf5, hf7, View.readCov_unit_zero (S := S1024x1) _ zeroOff1, View.ld_unit_zero (S := S1024x3) zeroOff1,
    View.ld_unit_zero (S := S1024x1) zeroOff1, View.ld_unit_zero (S := S1x1024) zeroOff1]
  all_goals exact View.readCov_unit_zero (S := S1024x1) _ zeroOff1 _ _

set_option maxHeartbeats 2000000 in
/-- At j = 15: the scratch ends as at the points before, and the output block holds the same. -/
theorem runC1 (c : Dev nD) (E : Set ℕ) (i : grid1.Coords) (h1 : ¬isFirst1 i) (h2 : isLater1 i) (h3 : isLast1 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare (k1_pay3 x0 x1 x2 x3 y7) ∗ owns (c : Thread nD τ) a7 fullShare (k1_pay3 x0 x1 x2 x3 y7)) -∗ K ⟨⟩))
      ⊢ wp frame (wpE (defs₀ (F := F)) Variants.none c none) E (cc1__row_min_kernel i a2 ha2 a3 ha3 a4 ha4 a5 ha5 a6 ha6 a7 ha7) K := by
  simp only [cc1__row_min_kernel_eq_skeleton]; unfold cc1__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (fun y => ⟨_, List.mem_singleton_self _, View.mem_set_unit_zero zeroOff1 inb_S1024x1_S1024x1_0_0 y⟩),
      View.canon_unit_zero zeroOff1]
    simp only [View.readAt_eq_ld, hf2, hf3, hf4, hf5, hf7, View.readCov_unit_zero (S := S1024x1) _ zeroOff1, View.ld_unit_zero (S := S1024x3) zeroOff1,
      View.ld_unit_zero (S := S1024x1) zeroOff1, View.ld_unit_zero (S := S1x1024) zeroOff1]
    all_goals exact View.readCov_unit_zero (S := S1024x1) _ zeroOff1 _ _
  iexists _; isplitr
  swap; · iexact H7
  ipureintro
  try sl_unfold_words
  rw [View.read_writes_eq_canon _ _ _ (fun y => ⟨_, List.mem_singleton_self _, View.mem_set_unit_zero zeroOff1 inb_S1024x1_S1024x1_0_0 y⟩),
    View.canon_unit_zero zeroOff1]
  simp only [View.readAt_eq_ld, hf2, hf3, hf4, hf5, hf7, View.readCov_unit_zero (S := S1024x1) _ zeroOff1, View.ld_unit_zero (S := S1024x3) zeroOff1,
    View.ld_unit_zero (S := S1024x1) zeroOff1, View.ld_unit_zero (S := S1x1024) zeroOff1]
  all_goals exact View.readCov_unit_zero (S := S1024x1) _ zeroOff1 _ _

end Cert.Kernel.Hand

end
-- ==== Proof.Kernel.Region1.lean ====
/-
  Region 1's proof data. At point t = 16·i + j the body reads block i of the first point set and of its squared
  norms, block j of the second point set and of its squared norms; the scratch after the point holds, row by row,
  the minimum over the blocks 0 … j of the clamped squared distances; the output block is written at j = 15 only.
-/
import proofs.«141939_j80676665688371_1_alg».proof.Proof.Gen.Kernel.Launch
import proofs.«141939_j80676665688371_1_alg».proof.Proof.Gen.Kernel.Skeleton
import proofs.«141939_j80676665688371_1_alg».proof.Proof.Gen.Kernel.Points
import proofs.«141939_j80676665688371_1_alg».proof.Proof.Kernel.Cases1
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which case a point is in, and where the output window is idle -/

theorem hFirst1 : ∀ t : Fin cfg1.N, isFirst1 (grid1.coords t) ↔ t.val % 16 = 0 :=
  (by decide +kernel : ∀ t : Fin grid1.N, isFirst1 (grid1.coords t) ↔ t.val % 16 = 0)
theorem hLater1 : ∀ t : Fin cfg1.N, isLater1 (grid1.coords t) ↔ t.val % 16 ≠ 0 :=
  (by decide +kernel : ∀ t : Fin grid1.N, isLater1 (grid1.coords t) ↔ t.val % 16 ≠ 0)
theorem hLast1 : ∀ t : Fin cfg1.N, isLast1 (grid1.coords t) ↔ t.val % 16 = 15 :=
  (by decide +kernel : ∀ t : Fin grid1.N, isLast1 (grid1.coords t) ↔ t.val % 16 = 15)

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
/-- The output window is idle at every point but the last of a row of the grid, -/
theorem idle1_4 : ∀ t : Fin cfg1.N, t.val % 16 ≠ 15 → cfg1.idle 4 (grid1.coords t) = true :=
  (by decide +kernel : ∀ t : Fin grid1.N, t.val % 16 ≠ 15 → cfg1.idle 4 (grid1.coords t) = true)
/-- live there, -/
theorem live1_4 : ∀ t : Fin cfg1.N, t.val % 16 = 15 → cfg1.idle 4 (grid1.coords t) = false :=
  (by decide +kernel : ∀ t : Fin grid1.N, t.val % 16 = 15 → cfg1.idle 4 (grid1.coords t) = false)
/-- and written back there only. -/
theorem noFlush1_4 (t : Fin cfg1.N) (h : t.val % 16 ≠ 15) : (cfg1.win 4).flush t = false := by
  cases hf : (cfg1.win 4).flush t
  · rfl
  · exact absurd ((flush1_4 t).mp hf) h

/-- The scratch operand: a whole scoped buffer of the kernel's own. -/
abbrev scM1 : Memref sig .tc .vmem S1024x1 .f32 := Memref.whole cc1_scratch0

/-- The core's scoped buffers that are neither a staging buffer of this call nor its scratch, each whole at some contents. -/
def rest1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- What the launch hands the region: the scratch at some contents, the other scoped buffers, the generator register. -/
theorem PhiA1_eq (c : Dev nD) :
    (Pipeline.ΦA spec1 c : sProp 𝕄)
      = iprop(((∃ d, owns (c : Thread nD τ) scM1 fullShare d) ∗ rest1 c) ∗ ∃ r, prngReg c r) := by
  unfold Pipeline.ΦA Pipeline.scopedRest rest1
  rw [bigSep_erase (i := cc1_scratch0) (by decide)]
  simp only [scM1, owns_whole]
  rfl

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The scratch, point by point -/

/-- What the scratch holds after point `n`: at the first point of a row of the grid the block's row minima, at the others the
    minimum of what the point before left and the block's row minima. -/
def acc1 (c : Dev nD) : (n : ℕ) → n < cfg1.N → Vec F S1024x1 .f32
  | 0, h => k1_pay2 (iblk1 V c 0 ⟨0, h⟩) (iblk1 V c 1 ⟨0, h⟩) (iblk1 V c 2 ⟨0, h⟩) (iblk1 V c 3 ⟨0, h⟩)
  | n + 1, h =>
    if (n + 1) % 16 = 0 then k1_pay2 (iblk1 V c 0 ⟨n + 1, h⟩) (iblk1 V c 1 ⟨n + 1, h⟩) (iblk1 V c 2 ⟨n + 1, h⟩) (iblk1 V c 3 ⟨n + 1, h⟩)
    else k1_pay3 (iblk1 V c 0 ⟨n + 1, h⟩) (iblk1 V c 1 ⟨n + 1, h⟩) (iblk1 V c 2 ⟨n + 1, h⟩) (iblk1 V c 3 ⟨n + 1, h⟩) (acc1 c n (Nat.lt_of_succ_lt h))

theorem acc1_first (c : Dev nD) (t : Fin cfg1.N) (h : t.val % 16 = 0) :
    acc1 V c t.val t.isLt = k1_pay2 (iblk1 V c 0 t) (iblk1 V c 1 t) (iblk1 V c 2 t) (iblk1 V c 3 t) := by
  obtain ⟨n, hn⟩ := t
  cases n with
  | zero => rfl
  | succ n => exact if_pos h

theorem acc1_later (c : Dev nD) (t : Fin cfg1.N) (h : t.val % 16 ≠ 0) :
    acc1 V c t.val t.isLt = k1_pay3 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point what the launch hands over; afterwards the scratch at
    what the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ ∃ r, prngReg c r)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ rest1 c) ∗ ∃ r, prngReg c r) := rfl

theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ ∃ r, prngReg c r) := by
  cases n with
  | zero => exact absurd rfl hz
  | succ n => rfl

/-! ## The proof data -/

/-- The proof data of pipeline 1 on core `c`: the arrays as the region finds them; after the body at point `t` each input's
    buffer at its block and the output's at the scratch's contents there; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4000000 in
/-- The body at any point: the inputs' buffers hold their blocks; `t mod 16` says which case the point is in; the invariant
    hands the body the scratch (at anything before the first point, else at what the point before left) and takes it back at
    this point's contents; the output buffer is handed back untouched except at the last point of a row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare (iblk1 V c 0 t) from by
    unfold Dat.leavesExact; rw [live1_0 t, after1_0]]
  rw [show (dat1 V c).leavesExact 1 t = owns (c : Thread nD τ) (st1_1 t) fullShare (iblk1 V c 1 t) from by
    unfold Dat.leavesExact; rw [live1_1 t, after1_1]]
  rw [show (dat1 V c).leavesExact 2 t = owns (c : Thread nD τ) (st1_2 t) fullShare (iblk1 V c 2 t) from by
    unfold Dat.leavesExact; rw [live1_2 t, after1_2]]
  rw [show (dat1 V c).leavesExact 3 t = owns (c : Thread nD τ) (st1_3 t) fullShare (iblk1 V c 3 t) from by
    unfold Dat.leavesExact; rw [live1_3 t, after1_3]]
  by_cases h0 : t.val % 16 = 0
  · -- the first point of a row
    have c1 := (hFirst1 t).mpr h0
    have c2 : ¬isLater1 (grid1.coords t) := fun h => (hLater1 t).mp h h0
    have c3 : ¬isLast1 (grid1.coords t) := fun h => by have := (hLast1 t).mp h; omega
    rw [Dat.leavesExact_idle (dat1 V c) 4 t (idle1_4 t (by omega)) (noFlush1_4 t (by omega)), acc1_first V c t h0]
    by_cases hz : t.val = 0
    · rw [Phi1_castSucc V c t, PhiS1_zero V c _ _ hz, PhiA1_eq]
      iintro ⟨⟨⟨⟨%y7, HS⟩, Hrest⟩, Hg⟩, Ho, ⟨%d0, H0⟩, ⟨%d1, H1⟩, ⟨%d2, H2⟩, ⟨%d3, H3⟩, ⟨%d4, H4⟩⟩
      iapply (runA1 c Set.univ (grid1.coords t) c1 c2 c3 _ _ _ _ _ _ _ _ _ _ _ _
        (iblk1 V c 0 t) (iblk1 V c 1 t) (iblk1 V c 2 t) (iblk1 V c 3 t) ((dat1 V c).before 4 t d4) y7 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (runA1 c Set.univ (grid1.coords t) c1 c2 c3 _ _ _ _ _ _ _ _ _ _ _ _
        (iblk1 V c 0 t) (iblk1 V c 1 t) (iblk1 V c 2 t) (iblk1 V c 3 t) ((dat1 V c).before 4 t d4) (acc1 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have c1 : ¬isFirst1 (grid1.coords t) := fun h => h0 ((hFirst1 t).mp h)
    have c2 := (hLater1 t).mpr h0
    have hz : t.val ≠ 0 := fun h => h0 (by rw [h])
    rw [Phi1_castSucc V c t, PhiS1_pos V c _ _ hz, acc1_later V c t h0]
    by_cases h15 : t.val % 16 = 15
    · -- the last point of a row
      have c3 := (hLast1 t).mpr h15
      rw [show (dat1 V c).leavesExact 4 t = owns (c : Thread nD τ) (st1_4 t) fullShare ((dat1 V c).after 4 t) from by
        unfold Dat.leavesExact; rw [live1_4 t h15], after1_4, acc1_later V c t h0]
      iintro ⟨⟨⟨HS, Hrest⟩, Hg⟩, Ho, ⟨%d0, H0⟩, ⟨%d1, H1⟩, ⟨%d2, H2⟩, ⟨%d3, H3⟩, ⟨%d4, H4⟩⟩
      iapply (runC1 c Set.univ (grid1.coords t) c1 c2 c3 _ _ _ _ _ _ _ _ _ _ _ _
        (iblk1 V c 0 t) (iblk1 V c 1 t) (iblk1 V c 2 t) (iblk1 V c 3 t) ((dat1 V c).before 4 t d4) (acc1 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · -- a point inside a row
      have c3 : ¬isLast1 (grid1.coords t) := fun h => h15 ((hLast1 t).mp h)
      rw [Dat.leavesExact_idle (dat1 V c) 4 t (idle1_4 t h15) (noFlush1_4 t h15)]
      iintro ⟨⟨⟨HS, Hrest⟩, Hg⟩, Ho, ⟨%d0, H0⟩, ⟨%d1, H1⟩, ⟨%d2, H2⟩, ⟨%d3, H3⟩, ⟨%d4, H4⟩⟩
      iapply (runB1 c Set.univ (grid1.coords t) c1 c2 c3 _ _ _ _ _ _ _ _ _ _ _ _
        (iblk1 V c 0 t) (iblk1 V c 1 t) (iblk1 V c 2 t) (iblk1 V c 3 t) ((dat1 V c).before 4 t d4) (acc1 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨⟨HS, Hrest⟩, Hg⟩
  isplitl [HS Hrest]
  · isplitl [HS]
    · iexists _; iexact HS
    iexact Hrest
  iexact Hg

end Region

end Cert.Kernel.Hand

end
-- ==== Proof.Kernel.Run.lean ====
/-
  The program's run. @main is five items: ten host operations (the reshapes and the two rows of squared norms), the first
  kernel region, two reshapes, the second kernel region, nine host operations (the two means and their sum). Between two
  items every unscoped buffer is held at named contents: the launch memory, then each host stretch's operations applied,
  then each region's arrays at what its write-backs leave. Every weakly fair execution terminates with every unscoped buffer
  at the last of these.
-/
import proofs.«141939_j80676665688371_1_alg».proof.Proof.Gen.Kernel.Launch
import proofs.«141939_j80676665688371_1_alg».proof.Proof.Gen.Kernel.Skeleton
import proofs.«141939_j80676665688371_1_alg».proof.Proof.Gen.Kernel.Points
import proofs.«141939_j80676665688371_1_alg».proof.Proof.Kernel.Region0
import proofs.«141939_j80676665688371_1_alg».proof.Proof.Kernel.Region1
import proofs.«141939_j80676665688371_1_alg».proof.Proof.Gen.Kernel.Regions
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 (c : Dev nD) : Valuation τ sig (Elt F) := fun b => m (c, b)
/-- After the first host stretch. -/
abbrev W1 (c : Dev nD) : Valuation τ sig (Elt F) := StableHlo.after hostOps0 (W0 m c)
/-- The same read at the TensorCore's references: what the first region finds. -/
abbrev V1 : (c : Dev nD) → (b : Ref sig .tc) → Buf (Elt F) ((c : Thread nD τ).loc b) := fun c b => W1 m c b
/-- After region 0: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch. -/
abbrev W3 (c : Dev nD) : Valuation τ sig (Elt F) := StableHlo.after hostOps1 (W2 m c)
/-- What the second region finds. -/
abbrev V3 : (c : Dev nD) → (b : Ref sig .tc) → Buf (Elt F) ((c : Thread nD τ).loc b) := fun c b => W3 m c b
/-- After region 1: its arrays at what the write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: the final contents. -/
abbrev W5 (c : Dev nD) : Valuation τ sig (Elt F) := StableHlo.after hostOps2 (W4 m c)

/-- `main_arg0` reaches the end as launched: no host operation writes it and no region's window stages it. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

/-- `main_arg1` reaches the end as launched: no host operation writes it and no region's window stages it. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide : main_arg1 ∉ hostOps2_W)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-- What a region is handed besides its arrays makes the launch-side invariant, -/
theorem toPhiA0 (c : Dev nD) (P : sProp 𝕄) :
    iprop((∃ r, prngReg c r) ∗ P ∗ Pipeline.scopedRest spec0 c) ⊢ (Pipeline.ΦA spec0 c : sProp 𝕄) := by
  unfold Pipeline.ΦA
  iintro ⟨Hp, -, Hr⟩
  isplitl [Hr]; · iexact Hr
  iexact Hp
/-- and the launch-side invariant gives it back. -/
theorem ofPhiA0 (c : Dev nD) :
    (Pipeline.ΦA spec0 c : sProp 𝕄) ⊢ iprop((∃ r, prngReg c r) ∗ emp ∗ Pipeline.scopedRest spec0 c) := by
  unfold Pipeline.ΦA
  iintro ⟨Hr, Hp⟩
  isplitl [Hp]; · iexact Hp
  isplitr; · iempintro
  iexact Hr
theorem toPhiA1 (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp
theorem ofPhiA1 (c : Dev nD) :
    (Pipeline.ΦA spec1 c : sProp 𝕄) ⊢ iprop((∃ r, prngReg c r) ∗ emp ∗ Pipeline.scopedRest spec1 c) := by
  unfold Pipeline.ΦA
  iintro ⟨Hr, Hp⟩
  isplitl [Hp]; · iexact Hp
  isplitr; · iempintro
  iexact Hr
/-- The last host stretch's exit is the last thread state beside the core owing nothing. -/
theorem lastStep (c : Dev nD) :
    iprop(StableHlo.held (c : Thread nD τ) (Pipeline.ucRefs τ sig) (W5 m c) ∗ R c)
      ⊢ (iprop(Tₙ m c ∗ ∃ W, owes (c : Thread nD τ) (0 : CellTallies nD τ sig Unit) W) : sProp 𝕄) := by
  iintro ⟨Hh, Hp, Ho⟩
  isplitl [Hh Hp]
  · isplitl [Hh]; · iexact Hh
    iexact Hp
  iexact Ho

/-! ## The regions as segments -/

set_option backward.isDefEq.respectTransparency.types false in
/-- Region 0 over the thread state: entered from every unscoped buffer at `W1`, left at `W2`. Its arrays are split out of
    the unscoped buffers and put back at the exit contents; the generator register and the scoped rest go into the region's
    invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA0 c _).trans (hin0 (V1 m) c)
  hout c := by
    rw [Pipeline.ownSems0_none]
    exact (hout0 (V1 m) c).trans (ofPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of
    the unscoped buffers and put back at the exit contents; the generator register and the scoped rest go into the region's
    invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c _).trans (hin1 (V3 m) c)
  hout c := by
    rw [Pipeline.ownSems0_none]
    exact (hout1 (V3 m) c).trans (ofPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (segs m) := (main_chain c).trans (by chain_rfl)

set_option backward.isDefEq.respectTransparency.types false in
/-- From any memory with zero counters, every weakly fair execution of @main terminates, nothing faulting, with every
    unscoped buffer at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => lastStep m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

end Cert.Kernel.Hand

end
-- ==== Proof.KernelIdeal.Cases0.lean ====
/-
  Region 0's kernel body, case by case. The body branches three times on the second grid coordinate j:
  at j = 0 it stores the block's row minima into the scratch; at j ≠ 0 it stores the minimum of the scratch and
  the row minima; at j = 15 it also copies the scratch into the output block.
-/
import proofs.«141939_j80676665688371_1_alg».proof.Proof.Gen.KernelIdeal.Launch
import proofs.«141939_j80676665688371_1_alg».proof.Proof.Gen.KernelIdeal.Skeleton
import proofs.«141939_j80676665688371_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of every access of the body: zero on both axes. -/
theorem zeroOff0 : (![0, 0] : Fin 2 → Nat) = fun _ => 0 := by funext a; fin_cases a <;> rfl

/-- The condition of the first branch: j = 0. -/
abbrev isFirst0 (i : grid0.Coords) : Prop :=
  Scalar.cmpi .ne (Scalar.extui (Scalar.cmpi .eq (BitVec.ofNat 32 (i 1).val) 0#32)) 0#32 = 1#1
/-- The condition of the second branch: j ≠ 0. -/
abbrev isLater0 (i : grid0.Coords) : Prop :=
  Scalar.cmpi .ne (Scalar.extui (Scalar.cmpi .ne (BitVec.ofNat 32 (i 1).val) 0#32)) 0#32 = 1#1
/-- The condition of the third branch: j = 15. -/
abbrev isLast0 (i : grid0.Coords) : Prop := k0_cond3 i = 1#1

set_option maxHeartbeats 2000000 in
/-- At j = 0: the scratch, whatever it held, ends at the block's row minima; everything else is as it was. -/
theorem runA0 (c : Dev nD) (E : Set ℕ) (i : grid0.Coords) (h1 : isFirst0 i) (h2 : ¬isLater0 i) (h3 : ¬isLast0 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare y6 ∗ owns (c : Thread nD τ) a7 fullShare (k0_pay2 x0 x1 x2 x3)) -∗ K ⟨⟩))
      ⊢ wp frame (wpE (defs₀ (F := F)) Variants.none c none) E (cc0__row_min_kernel i a2 ha2 a3 ha3 a4 ha4 a5 ha5 a6 ha6 a7 ha7) K := by
  simp only [cc0__row_min_kernel_eq_skeleton]; unfold cc0__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  try sl_unfold_words
  rw [View.read_writes_eq_canon _ _ _ (fun y => ⟨_, List.mem_singleton_self _, View.mem_set_unit_zero zeroOff0 inb_S1024x1_S1024x1_0_0 y⟩),
    View.canon_unit_zero zeroOff0]
  simp only [View.readAt_eq_ld, hf2, hf3, hf4, hf5, hf7, View.readCov_unit_zero (S := S1024x1) _ zeroOff0, View.ld_unit_zero (S := S1024x3) zeroOff0,
    View.ld_unit_zero (S := S1024x1) zeroOff0, View.ld_unit_zero (S := S1x1024) zeroOff0]
  all_goals exact View.readCov_unit_zero (S := S1024x1) _ zeroOff0 _ _

set_option maxHeartbeats 2000000 in
/-- At 0 < j < 15: the scratch ends at the minimum of what it held and the block's row minima. -/
theorem runB0 (c : Dev nD) (E : Set ℕ) (i : grid0.Coords) (h1 : ¬isFirst0 i) (h2 : isLater0 i) (h3 : ¬isLast0 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare y6 ∗ owns (c : Thread nD τ) a7 fullShare (k0_pay3 x0 x1 x2 x3 y7)) -∗ K ⟨⟩))
      ⊢ wp frame (wpE (defs₀ (F := F)) Variants.none c none) E (cc0__row_min_kernel i a2 ha2 a3 ha3 a4 ha4 a5 ha5 a6 ha6 a7 ha7) K := by
  simp only [cc0__row_min_kernel_eq_skeleton]; unfold cc0__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  try sl_unfold_words
  rw [View.read_writes_eq_canon _ _ _ (fun y => ⟨_, List.mem_singleton_self _, View.mem_set_unit_zero zeroOff0 inb_S1024x1_S1024x1_0_0 y⟩),
    View.canon_unit_zero zeroOff0]
  simp only [View.readAt_eq_ld, hf2, hf3, hf4, hf5, hf7, View.readCov_unit_zero (S := S1024x1) _ zeroOff0, View.ld_unit_zero (S := S1024x3) zeroOff0,
    View.ld_unit_zero (S := S1024x1) zeroOff0, View.ld_unit_zero (S := S1x1024) zeroOff0]
  all_goals exact View.readCov_unit_zero (S := S1024x1) _ zeroOff0 _ _

set_option maxHeartbeats 2000000 in
/-- At j = 15: the scratch ends as at the points before, and the output block holds the same. -/
theorem runC0 (c : Dev nD) (E : Set ℕ) (i : grid0.Coords) (h1 : ¬isFirst0 i) (h2 : isLater0 i) (h3 : isLast0 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare (k0_pay3 x0 x1 x2 x3 y7) ∗ owns (c : Thread nD τ) a7 fullShare (k0_pay3 x0 x1 x2 x3 y7)) -∗ K ⟨⟩))
      ⊢ wp frame (wpE (defs₀ (F := F)) Variants.none c none) E (cc0__row_min_kernel i a2 ha2 a3 ha3 a4 ha4 a5 ha5 a6 ha6 a7 ha7) K := by
  simp only [cc0__row_min_kernel_eq_skeleton]; unfold cc0__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (fun y => ⟨_, List.mem_singleton_self _, View.mem_set_unit_zero zeroOff0 inb_S1024x1_S1024x1_0_0 y⟩),
      View.canon_unit_zero zeroOff0]
    simp only [View.readAt_eq_ld, hf2, hf3, hf4, hf5, hf7, View.readCov_unit_zero (S := S1024x1) _ zeroOff0, View.ld_unit_zero (S := S1024x3) zeroOff0,
      View.ld_unit_zero (S := S1024x1) zeroOff0, View.ld_unit_zero (S := S1x1024) zeroOff0]
    all_goals exact View.readCov_unit_zero (S := S1024x1) _ zeroOff0 _ _
  iexists _; isplitr
  swap; · iexact H7
  ipureintro
  try sl_unfold_words
  rw [View.read_writes_eq_canon _ _ _ (fun y => ⟨_, List.mem_singleton_self _, View.mem_set_unit_zero zeroOff0 inb_S1024x1_S1024x1_0_0 y⟩),
    View.canon_unit_zero zeroOff0]
  simp only [View.readAt_eq_ld, hf2, hf3, hf4, hf5, hf7, View.readCov_unit_zero (S := S1024x1) _ zeroOff0, View.ld_unit_zero (S := S1024x3) zeroOff0,
    View.ld_unit_zero (S := S1024x1) zeroOff0, View.ld_unit_zero (S := S1x1024) zeroOff0]
  all_goals exact View.readCov_unit_zero (S := S1024x1) _ zeroOff0 _ _

end Cert.KernelIdeal.Hand

end
-- ==== Proof.KernelIdeal.Region0.lean ====
/-
  Region 0's proof data. At point t = 16·i + j the body reads block i of the first point set and of its squared
  norms, block j of the second point set and of its squared norms; the scratch after the point holds, row by row,
  the minimum over the blocks 0 … j of the clamped squared distances; the output block is written at j = 15 only.
-/
import proofs.«141939_j80676665688371_1_alg».proof.Proof.Gen.KernelIdeal.Launch
import proofs.«141939_j80676665688371_1_alg».proof.Proof.Gen.KernelIdeal.Skeleton
import proofs.«141939_j80676665688371_1_alg».proof.Proof.Gen.KernelIdeal.Points
import proofs.«141939_j80676665688371_1_alg».proof.Proof.KernelIdeal.Cases0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which case a point is in, and where the output window is idle -/

theorem hFirst0 : ∀ t : Fin cfg0.N, isFirst0 (grid0.coords t) ↔ t.val % 16 = 0 :=
  (by decide +kernel : ∀ t : Fin grid0.N, isFirst0 (grid0.coords t) ↔ t.val % 16 = 0)
theorem hLater0 : ∀ t : Fin cfg0.N, isLater0 (grid0.coords t) ↔ t.val % 16 ≠ 0 :=
  (by decide +kernel : ∀ t : Fin grid0.N, isLater0 (grid0.coords t) ↔ t.val % 16 ≠ 0)
theorem hLast0 : ∀ t : Fin cfg0.N, isLast0 (grid0.coords t) ↔ t.val % 16 = 15 :=
  (by decide +kernel : ∀ t : Fin grid0.N, isLast0 (grid0.coords t) ↔ t.val % 16 = 15)

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
/-- The output window is idle at every point but the last of a row of the grid, -/
theorem idle0_4 : ∀ t : Fin cfg0.N, t.val % 16 ≠ 15 → cfg0.idle 4 (grid0.coords t) = true :=
  (by decide +kernel : ∀ t : Fin grid0.N, t.val % 16 ≠ 15 → cfg0.idle 4 (grid0.coords t) = true)
/-- live there, -/
theorem live0_4 : ∀ t : Fin cfg0.N, t.val % 16 = 15 → cfg0.idle 4 (grid0.coords t) = false :=
  (by decide +kernel : ∀ t : Fin grid0.N, t.val % 16 = 15 → cfg0.idle 4 (grid0.coords t) = false)
/-- and written back there only. -/
theorem noFlush0_4 (t : Fin cfg0.N) (h : t.val % 16 ≠ 15) : (cfg0.win 4).flush t = false := by
  cases hf : (cfg0.win 4).flush t
  · rfl
  · exact absurd ((flush0_4 t).mp hf) h

/-- The scratch operand: a whole scoped buffer of the kernel's own. -/
abbrev scM0 : Memref sig .tc .vmem S1024x1 .f32 := Memref.whole cc0_scratch0

/-- The core's scoped buffers that are neither a staging buffer of this call nor its scratch, each whole at some contents. -/
def rest0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- What the launch hands the region: the scratch at some contents, the other scoped buffers, the generator register. -/
theorem PhiA0_eq (c : Dev nD) :
    (Pipeline.ΦA spec0 c : sProp 𝕄)
      = iprop(((∃ d, owns (c : Thread nD τ) scM0 fullShare d) ∗ rest0 c) ∗ ∃ r, prngReg c r) := by
  unfold Pipeline.ΦA Pipeline.scopedRest rest0
  rw [bigSep_erase (i := cc0_scratch0) (by decide)]
  simp only [scM0, owns_whole]
  rfl

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The scratch, point by point -/

/-- What the scratch holds after point `n`: at the first point of a row of the grid the block's row minima, at the others the
    minimum of what the point before left and the block's row minima. -/
def acc0 (c : Dev nD) : (n : ℕ) → n < cfg0.N → Vec F S1024x1 .f32
  | 0, h => k0_pay2 (iblk0 V c 0 ⟨0, h⟩) (iblk0 V c 1 ⟨0, h⟩) (iblk0 V c 2 ⟨0, h⟩) (iblk0 V c 3 ⟨0, h⟩)
  | n + 1, h =>
    if (n + 1) % 16 = 0 then k0_pay2 (iblk0 V c 0 ⟨n + 1, h⟩) (iblk0 V c 1 ⟨n + 1, h⟩) (iblk0 V c 2 ⟨n + 1, h⟩) (iblk0 V c 3 ⟨n + 1, h⟩)
    else k0_pay3 (iblk0 V c 0 ⟨n + 1, h⟩) (iblk0 V c 1 ⟨n + 1, h⟩) (iblk0 V c 2 ⟨n + 1, h⟩) (iblk0 V c 3 ⟨n + 1, h⟩) (acc0 c n (Nat.lt_of_succ_lt h))

theorem acc0_first (c : Dev nD) (t : Fin cfg0.N) (h : t.val % 16 = 0) :
    acc0 V c t.val t.isLt = k0_pay2 (iblk0 V c 0 t) (iblk0 V c 1 t) (iblk0 V c 2 t) (iblk0 V c 3 t) := by
  obtain ⟨n, hn⟩ := t
  cases n with
  | zero => rfl
  | succ n => exact if_pos h

theorem acc0_later (c : Dev nD) (t : Fin cfg0.N) (h : t.val % 16 ≠ 0) :
    acc0 V c t.val t.isLt = k0_pay3 (iblk0 V c 0 t) (iblk0 V c 1 t) (iblk0 V c 2 t) (iblk0 V c 3 t) (acc0 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point what the launch hands over; afterwards the scratch at
    what the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ ∃ r, prngReg c r)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ ∃ r, prngReg c r) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ ∃ r, prngReg c r) := by
  cases n with
  | zero => exact absurd rfl hz
  | succ n => rfl

/-! ## The proof data -/

/-- The proof data of pipeline 0 on core `c`: the arrays as the region finds them; after the body at point `t` each input's
    buffer at its block and the output's at the scratch's contents there; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0 V c t.val t.isLt := by dsimp only [dat0]

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
/-- The body at any point: the inputs' buffers hold their blocks; `t mod 16` says which case the point is in; the invariant
    hands the body the scratch (at anything before the first point, else at what the point before left) and takes it back at
    this point's contents; the output buffer is handed back untouched except at the last point of a row. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare (iblk0 V c 0 t) from by
    unfold Dat.leavesExact; rw [live0_0 t, after0_0]]
  rw [show (dat0 V c).leavesExact 1 t = owns (c : Thread nD τ) (st0_1 t) fullShare (iblk0 V c 1 t) from by
    unfold Dat.leavesExact; rw [live0_1 t, after0_1]]
  rw [show (dat0 V c).leavesExact 2 t = owns (c : Thread nD τ) (st0_2 t) fullShare (iblk0 V c 2 t) from by
    unfold Dat.leavesExact; rw [live0_2 t, after0_2]]
  rw [show (dat0 V c).leavesExact 3 t = owns (c : Thread nD τ) (st0_3 t) fullShare (iblk0 V c 3 t) from by
    unfold Dat.leavesExact; rw [live0_3 t, after0_3]]
  by_cases h0 : t.val % 16 = 0
  · -- the first point of a row
    have c1 := (hFirst0 t).mpr h0
    have c2 : ¬isLater0 (grid0.coords t) := fun h => (hLater0 t).mp h h0
    have c3 : ¬isLast0 (grid0.coords t) := fun h => by have := (hLast0 t).mp h; omega
    rw [Dat.leavesExact_idle (dat0 V c) 4 t (idle0_4 t (by omega)) (noFlush0_4 t (by omega)), acc0_first V c t h0]
    by_cases hz : t.val = 0
    · rw [Phi0_castSucc V c t, PhiS0_zero V c _ _ hz, PhiA0_eq]
      iintro ⟨⟨⟨⟨%y7, HS⟩, Hrest⟩, Hg⟩, Ho, ⟨%d0, H0⟩, ⟨%d1, H1⟩, ⟨%d2, H2⟩, ⟨%d3, H3⟩, ⟨%d4, H4⟩⟩
      iapply (runA0 c Set.univ (grid0.coords t) c1 c2 c3 _ _ _ _ _ _ _ _ _ _ _ _
        (iblk0 V c 0 t) (iblk0 V c 1 t) (iblk0 V c 2 t) (iblk0 V c 3 t) ((dat0 V c).before 4 t d4) y7 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [Phi0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (runA0 c Set.univ (grid0.coords t) c1 c2 c3 _ _ _ _ _ _ _ _ _ _ _ _
        (iblk0 V c 0 t) (iblk0 V c 1 t) (iblk0 V c 2 t) (iblk0 V c 3 t) ((dat0 V c).before 4 t d4) (acc0 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have c1 : ¬isFirst0 (grid0.coords t) := fun h => h0 ((hFirst0 t).mp h)
    have c2 := (hLater0 t).mpr h0
    have hz : t.val ≠ 0 := fun h => h0 (by rw [h])
    rw [Phi0_castSucc V c t, PhiS0_pos V c _ _ hz, acc0_later V c t h0]
    by_cases h15 : t.val % 16 = 15
    · -- the last point of a row
      have c3 := (hLast0 t).mpr h15
      rw [show (dat0 V c).leavesExact 4 t = owns (c : Thread nD τ) (st0_4 t) fullShare ((dat0 V c).after 4 t) from by
        unfold Dat.leavesExact; rw [live0_4 t h15], after0_4, acc0_later V c t h0]
      iintro ⟨⟨⟨HS, Hrest⟩, Hg⟩, Ho, ⟨%d0, H0⟩, ⟨%d1, H1⟩, ⟨%d2, H2⟩, ⟨%d3, H3⟩, ⟨%d4, H4⟩⟩
      iapply (runC0 c Set.univ (grid0.coords t) c1 c2 c3 _ _ _ _ _ _ _ _ _ _ _ _
        (iblk0 V c 0 t) (iblk0 V c 1 t) (iblk0 V c 2 t) (iblk0 V c 3 t) ((dat0 V c).before 4 t d4) (acc0 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · -- a point inside a row
      have c3 : ¬isLast0 (grid0.coords t) := fun h => h15 ((hLast0 t).mp h)
      rw [Dat.leavesExact_idle (dat0 V c) 4 t (idle0_4 t h15) (noFlush0_4 t h15)]
      iintro ⟨⟨⟨HS, Hrest⟩, Hg⟩, Ho, ⟨%d0, H0⟩, ⟨%d1, H1⟩, ⟨%d2, H2⟩, ⟨%d3, H3⟩, ⟨%d4, H4⟩⟩
      iapply (runB0 c Set.univ (grid0.coords t) c1 c2 c3 _ _ _ _ _ _ _ _ _ _ _ _
        (iblk0 V c 0 t) (iblk0 V c 1 t) (iblk0 V c 2 t) (iblk0 V c 3 t) ((dat0 V c).before 4 t d4) (acc0 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨⟨HS, Hrest⟩, Hg⟩
  isplitl [HS Hrest]
  · isplitl [HS]
    · iexists _; iexact HS
    iexact Hrest
  iexact Hg

end Region

end Cert.KernelIdeal.Hand

end
-- ==== Proof.KernelIdeal.Cases1.lean ====
/-
  Region 1's kernel body, case by case. The body branches three times on the second grid coordinate j:
  at j = 0 it stores the block's row minima into the scratch; at j ≠ 0 it stores the minimum of the scratch and
  the row minima; at j = 15 it also copies the scratch into the output block.
-/
import proofs.«141939_j80676665688371_1_alg».proof.Proof.Gen.KernelIdeal.Launch
import proofs.«141939_j80676665688371_1_alg».proof.Proof.Gen.KernelIdeal.Skeleton
import proofs.«141939_j80676665688371_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of every access of the body: zero on both axes. -/
theorem zeroOff1 : (![0, 0] : Fin 2 → Nat) = fun _ => 0 := by funext a; fin_cases a <;> rfl

/-- The condition of the first branch: j = 0. -/
abbrev isFirst1 (i : grid1.Coords) : Prop :=
  Scalar.cmpi .ne (Scalar.extui (Scalar.cmpi .eq (BitVec.ofNat 32 (i 1).val) 0#32)) 0#32 = 1#1
/-- The condition of the second branch: j ≠ 0. -/
abbrev isLater1 (i : grid1.Coords) : Prop :=
  Scalar.cmpi .ne (Scalar.extui (Scalar.cmpi .ne (BitVec.ofNat 32 (i 1).val) 0#32)) 0#32 = 1#1
/-- The condition of the third branch: j = 15. -/
abbrev isLast1 (i : grid1.Coords) : Prop := k1_cond3 i = 1#1

set_option maxHeartbeats 2000000 in
/-- At j = 0: the scratch, whatever it held, ends at the block's row minima; everything else is as it was. -/
theorem runA1 (c : Dev nD) (E : Set ℕ) (i : grid1.Coords) (h1 : isFirst1 i) (h2 : ¬isLater1 i) (h3 : ¬isLast1 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare y6 ∗ owns (c : Thread nD τ) a7 fullShare (k1_pay2 x0 x1 x2 x3)) -∗ K ⟨⟩))
      ⊢ wp frame (wpE (defs₀ (F := F)) Variants.none c none) E (cc1__row_min_kernel i a2 ha2 a3 ha3 a4 ha4 a5 ha5 a6 ha6 a7 ha7) K := by
  simp only [cc1__row_min_kernel_eq_skeleton]; unfold cc1__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  try sl_unfold_words
  rw [View.read_writes_eq_canon _ _ _ (fun y => ⟨_, List.mem_singleton_self _, View.mem_set_unit_zero zeroOff1 inb_S1024x1_S1024x1_0_0 y⟩),
    View.canon_unit_zero zeroOff1]
  simp only [View.readAt_eq_ld, hf2, hf3, hf4, hf5, hf7, View.readCov_unit_zero (S := S1024x1) _ zeroOff1, View.ld_unit_zero (S := S1024x3) zeroOff1,
    View.ld_unit_zero (S := S1024x1) zeroOff1, View.ld_unit_zero (S := S1x1024) zeroOff1]
  all_goals exact View.readCov_unit_zero (S := S1024x1) _ zeroOff1 _ _

set_option maxHeartbeats 2000000 in
/-- At 0 < j < 15: the scratch ends at the minimum of what it held and the block's row minima. -/
theorem runB1 (c : Dev nD) (E : Set ℕ) (i : grid1.Coords) (h1 : ¬isFirst1 i) (h2 : isLater1 i) (h3 : ¬isLast1 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare y6 ∗ owns (c : Thread nD τ) a7 fullShare (k1_pay3 x0 x1 x2 x3 y7)) -∗ K ⟨⟩))
      ⊢ wp frame (wpE (defs₀ (F := F)) Variants.none c none) E (cc1__row_min_kernel i a2 ha2 a3 ha3 a4 ha4 a5 ha5 a6 ha6 a7 ha7) K := by
  simp only [cc1__row_min_kernel_eq_skeleton]; unfold cc1__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  try sl_unfold_words
  rw [View.read_writes_eq_canon _ _ _ (fun y => ⟨_, List.mem_singleton_self _, View.mem_set_unit_zero zeroOff1 inb_S1024x1_S1024x1_0_0 y⟩),
    View.canon_unit_zero zeroOff1]
  simp only [View.readAt_eq_ld, hf2, hf3, hf4, hf5, hf7, View.readCov_unit_zero (S := S1024x1) _ zeroOff1, View.ld_unit_zero (S := S1024x3) zeroOff1,
    View.ld_unit_zero (S := S1024x1) zeroOff1, View.ld_unit_zero (S := S1x1024) zeroOff1]
  all_goals exact View.readCov_unit_zero (S := S1024x1) _ zeroOff1 _ _

set_option maxHeartbeats 2000000 in
/-- At j = 15: the scratch ends as at the points before, and the output block holds the same. -/
theorem runC1 (c : Dev nD) (E : Set ℕ) (i : grid1.Coords) (h1 : ¬isFirst1 i) (h2 : isLater1 i) (h3 : isLast1 i)
    (a2 : Memref sig .tc .vmem S1024x3 .f32) (ha2 : a2.IsWhole) (a3 : Memref sig .tc .vmem S1024x3 .f32) (ha3 : a3.IsWhole)
    (a4 : Memref sig .tc .vmem S1024x1 .f32) (ha4 : a4.IsWhole) (a5 : Memref sig .tc .vmem S1x1024 .f32) (ha5 : a5.IsWhole)
    (a6 : Memref sig .tc .vmem S1024x1 .f32) (ha6 : a6.IsWhole) (a7 : Memref sig .tc .vmem S1024x1 .f32) (ha7 : a7.IsWhole)
    (x0 x1 : Vec F S1024x3 .f32) (x2 : Vec F S1024x1 .f32) (x3 : Vec F S1x1024 .f32) (y6 y7 : Vec F S1024x1 .f32) (K : PUnit → sProp 𝕄) :
    iprop(owns (c : Thread nD τ) a2 fullShare x0 ∗ owns (c : Thread nD τ) a3 fullShare x1
        ∗ owns (c : Thread nD τ) a4 fullShare x2 ∗ owns (c : Thread nD τ) a5 fullShare x3
        ∗ owns (c : Thread nD τ) a6 fullShare y6 ∗ owns (c : Thread nD τ) a7 fullShare y7
        ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare (k1_pay3 x0 x1 x2 x3 y7) ∗ owns (c : Thread nD τ) a7 fullShare (k1_pay3 x0 x1 x2 x3 y7)) -∗ K ⟨⟩))
      ⊢ wp frame (wpE (defs₀ (F := F)) Variants.none c none) E (cc1__row_min_kernel i a2 ha2 a3 ha3 a4 ha4 a5 ha5 a6 ha6 a7 ha7) K := by
  simp only [cc1__row_min_kernel_eq_skeleton]; unfold cc1__row_min_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := ha2.eq_unread hf2; obtain rfl := ha3.eq_unread hf3; obtain rfl := ha4.eq_unread hf4
  obtain rfl := ha5.eq_unread hf5; obtain rfl := ha6.eq_unread hf6; obtain rfl := ha7.eq_unread hf7
  sl_exec (disch := first | exact h1 | exact h2 | exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    try sl_unfold_words
    rw [View.read_writes_eq_canon _ _ _ (fun y => ⟨_, List.mem_singleton_self _, View.mem_set_unit_zero zeroOff1 inb_S1024x1_S1024x1_0_0 y⟩),
      View.canon_unit_zero zeroOff1]
    simp only [View.readAt_eq_ld, hf2, hf3, hf4, hf5, hf7, View.readCov_unit_zero (S := S1024x1) _ zeroOff1, View.ld_unit_zero (S := S1024x3) zeroOff1,
      View.ld_unit_zero (S := S1024x1) zeroOff1, View.ld_unit_zero (S := S1x1024) zeroOff1]
    all_goals exact View.readCov_unit_zero (S := S1024x1) _ zeroOff1 _ _
  iexists _; isplitr
  swap; · iexact H7
  ipureintro
  try sl_unfold_words
  rw [View.read_writes_eq_canon _ _ _ (fun y => ⟨_, List.mem_singleton_self _, View.mem_set_unit_zero zeroOff1 inb_S1024x1_S1024x1_0_0 y⟩),
    View.canon_unit_zero zeroOff1]
  simp only [View.readAt_eq_ld, hf2, hf3, hf4, hf5, hf7, View.readCov_unit_zero (S := S1024x1) _ zeroOff1, View.ld_unit_zero (S := S1024x3) zeroOff1,
    View.ld_unit_zero (S := S1024x1) zeroOff1, View.ld_unit_zero (S := S1x1024) zeroOff1]
  all_goals exact View.readCov_unit_zero (S := S1024x1) _ zeroOff1 _ _

end Cert.KernelIdeal.Hand

end
-- ==== Proof.KernelIdeal.Region1.lean ====
/-
  Region 1's proof data. At point t = 16·i + j the body reads block i of the first point set and of its squared
  norms, block j of the second point set and of its squared norms; the scratch after the point holds, row by row,
  the minimum over the blocks 0 … j of the clamped squared distances; the output block is written at j = 15 only.
-/
import proofs.«141939_j80676665688371_1_alg».proof.Proof.Gen.KernelIdeal.Launch
import proofs.«141939_j80676665688371_1_alg».proof.Proof.Gen.KernelIdeal.Skeleton
import proofs.«141939_j80676665688371_1_alg».proof.Proof.Gen.KernelIdeal.Points
import proofs.«141939_j80676665688371_1_alg».proof.Proof.KernelIdeal.Cases1
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which case a point is in, and where the output window is idle -/

theorem hFirst1 : ∀ t : Fin cfg1.N, isFirst1 (grid1.coords t) ↔ t.val % 16 = 0 :=
  (by decide +kernel : ∀ t : Fin grid1.N, isFirst1 (grid1.coords t) ↔ t.val % 16 = 0)
theorem hLater1 : ∀ t : Fin cfg1.N, isLater1 (grid1.coords t) ↔ t.val % 16 ≠ 0 :=
  (by decide +kernel : ∀ t : Fin grid1.N, isLater1 (grid1.coords t) ↔ t.val % 16 ≠ 0)
theorem hLast1 : ∀ t : Fin cfg1.N, isLast1 (grid1.coords t) ↔ t.val % 16 = 15 :=
  (by decide +kernel : ∀ t : Fin grid1.N, isLast1 (grid1.coords t) ↔ t.val % 16 = 15)

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
/-- The output window is idle at every point but the last of a row of the grid, -/
theorem idle1_4 : ∀ t : Fin cfg1.N, t.val % 16 ≠ 15 → cfg1.idle 4 (grid1.coords t) = true :=
  (by decide +kernel : ∀ t : Fin grid1.N, t.val % 16 ≠ 15 → cfg1.idle 4 (grid1.coords t) = true)
/-- live there, -/
theorem live1_4 : ∀ t : Fin cfg1.N, t.val % 16 = 15 → cfg1.idle 4 (grid1.coords t) = false :=
  (by decide +kernel : ∀ t : Fin grid1.N, t.val % 16 = 15 → cfg1.idle 4 (grid1.coords t) = false)
/-- and written back there only. -/
theorem noFlush1_4 (t : Fin cfg1.N) (h : t.val % 16 ≠ 15) : (cfg1.win 4).flush t = false := by
  cases hf : (cfg1.win 4).flush t
  · rfl
  · exact absurd ((flush1_4 t).mp hf) h

/-- The scratch operand: a whole scoped buffer of the kernel's own. -/
abbrev scM1 : Memref sig .tc .vmem S1024x1 .f32 := Memref.whole cc1_scratch0

/-- The core's scoped buffers that are neither a staging buffer of this call nor its scratch, each whole at some contents. -/
def rest1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- What the launch hands the region: the scratch at some contents, the other scoped buffers, the generator register. -/
theorem PhiA1_eq (c : Dev nD) :
    (Pipeline.ΦA spec1 c : sProp 𝕄)
      = iprop(((∃ d, owns (c : Thread nD τ) scM1 fullShare d) ∗ rest1 c) ∗ ∃ r, prngReg c r) := by
  unfold Pipeline.ΦA Pipeline.scopedRest rest1
  rw [bigSep_erase (i := cc1_scratch0) (by decide)]
  simp only [scM1, owns_whole]
  rfl

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The scratch, point by point -/

/-- What the scratch holds after point `n`: at the first point of a row of the grid the block's row minima, at the others the
    minimum of what the point before left and the block's row minima. -/
def acc1 (c : Dev nD) : (n : ℕ) → n < cfg1.N → Vec F S1024x1 .f32
  | 0, h => k1_pay2 (iblk1 V c 0 ⟨0, h⟩) (iblk1 V c 1 ⟨0, h⟩) (iblk1 V c 2 ⟨0, h⟩) (iblk1 V c 3 ⟨0, h⟩)
  | n + 1, h =>
    if (n + 1) % 16 = 0 then k1_pay2 (iblk1 V c 0 ⟨n + 1, h⟩) (iblk1 V c 1 ⟨n + 1, h⟩) (iblk1 V c 2 ⟨n + 1, h⟩) (iblk1 V c 3 ⟨n + 1, h⟩)
    else k1_pay3 (iblk1 V c 0 ⟨n + 1, h⟩) (iblk1 V c 1 ⟨n + 1, h⟩) (iblk1 V c 2 ⟨n + 1, h⟩) (iblk1 V c 3 ⟨n + 1, h⟩) (acc1 c n (Nat.lt_of_succ_lt h))

theorem acc1_first (c : Dev nD) (t : Fin cfg1.N) (h : t.val % 16 = 0) :
    acc1 V c t.val t.isLt = k1_pay2 (iblk1 V c 0 t) (iblk1 V c 1 t) (iblk1 V c 2 t) (iblk1 V c 3 t) := by
  obtain ⟨n, hn⟩ := t
  cases n with
  | zero => rfl
  | succ n => exact if_pos h

theorem acc1_later (c : Dev nD) (t : Fin cfg1.N) (h : t.val % 16 ≠ 0) :
    acc1 V c t.val t.isLt = k1_pay3 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point what the launch hands over; afterwards the scratch at
    what the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ ∃ r, prngReg c r)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ rest1 c) ∗ ∃ r, prngReg c r) := rfl

theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ ∃ r, prngReg c r) := by
  cases n with
  | zero => exact absurd rfl hz
  | succ n => rfl

/-! ## The proof data -/

/-- The proof data of pipeline 1 on core `c`: the arrays as the region finds them; after the body at point `t` each input's
    buffer at its block and the output's at the scratch's contents there; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4000000 in
/-- The body at any point: the inputs' buffers hold their blocks; `t mod 16` says which case the point is in; the invariant
    hands the body the scratch (at anything before the first point, else at what the point before left) and takes it back at
    this point's contents; the output buffer is handed back untouched except at the last point of a row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare (iblk1 V c 0 t) from by
    unfold Dat.leavesExact; rw [live1_0 t, after1_0]]
  rw [show (dat1 V c).leavesExact 1 t = owns (c : Thread nD τ) (st1_1 t) fullShare (iblk1 V c 1 t) from by
    unfold Dat.leavesExact; rw [live1_1 t, after1_1]]
  rw [show (dat1 V c).leavesExact 2 t = owns (c : Thread nD τ) (st1_2 t) fullShare (iblk1 V c 2 t) from by
    unfold Dat.leavesExact; rw [live1_2 t, after1_2]]
  rw [show (dat1 V c).leavesExact 3 t = owns (c : Thread nD τ) (st1_3 t) fullShare (iblk1 V c 3 t) from by
    unfold Dat.leavesExact; rw [live1_3 t, after1_3]]
  by_cases h0 : t.val % 16 = 0
  · -- the first point of a row
    have c1 := (hFirst1 t).mpr h0
    have c2 : ¬isLater1 (grid1.coords t) := fun h => (hLater1 t).mp h h0
    have c3 : ¬isLast1 (grid1.coords t) := fun h => by have := (hLast1 t).mp h; omega
    rw [Dat.leavesExact_idle (dat1 V c) 4 t (idle1_4 t (by omega)) (noFlush1_4 t (by omega)), acc1_first V c t h0]
    by_cases hz : t.val = 0
    · rw [Phi1_castSucc V c t, PhiS1_zero V c _ _ hz, PhiA1_eq]
      iintro ⟨⟨⟨⟨%y7, HS⟩, Hrest⟩, Hg⟩, Ho, ⟨%d0, H0⟩, ⟨%d1, H1⟩, ⟨%d2, H2⟩, ⟨%d3, H3⟩, ⟨%d4, H4⟩⟩
      iapply (runA1 c Set.univ (grid1.coords t) c1 c2 c3 _ _ _ _ _ _ _ _ _ _ _ _
        (iblk1 V c 0 t) (iblk1 V c 1 t) (iblk1 V c 2 t) (iblk1 V c 3 t) ((dat1 V c).before 4 t d4) y7 _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (runA1 c Set.univ (grid1.coords t) c1 c2 c3 _ _ _ _ _ _ _ _ _ _ _ _
        (iblk1 V c 0 t) (iblk1 V c 1 t) (iblk1 V c 2 t) (iblk1 V c 3 t) ((dat1 V c).before 4 t d4) (acc1 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have c1 : ¬isFirst1 (grid1.coords t) := fun h => h0 ((hFirst1 t).mp h)
    have c2 := (hLater1 t).mpr h0
    have hz : t.val ≠ 0 := fun h => h0 (by rw [h])
    rw [Phi1_castSucc V c t, PhiS1_pos V c _ _ hz, acc1_later V c t h0]
    by_cases h15 : t.val % 16 = 15
    · -- the last point of a row
      have c3 := (hLast1 t).mpr h15
      rw [show (dat1 V c).leavesExact 4 t = owns (c : Thread nD τ) (st1_4 t) fullShare ((dat1 V c).after 4 t) from by
        unfold Dat.leavesExact; rw [live1_4 t h15], after1_4, acc1_later V c t h0]
      iintro ⟨⟨⟨HS, Hrest⟩, Hg⟩, Ho, ⟨%d0, H0⟩, ⟨%d1, H1⟩, ⟨%d2, H2⟩, ⟨%d3, H3⟩, ⟨%d4, H4⟩⟩
      iapply (runC1 c Set.univ (grid1.coords t) c1 c2 c3 _ _ _ _ _ _ _ _ _ _ _ _
        (iblk1 V c 0 t) (iblk1 V c 1 t) (iblk1 V c 2 t) (iblk1 V c 3 t) ((dat1 V c).before 4 t d4) (acc1 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · -- a point inside a row
      have c3 : ¬isLast1 (grid1.coords t) := fun h => h15 ((hLast1 t).mp h)
      rw [Dat.leavesExact_idle (dat1 V c) 4 t (idle1_4 t h15) (noFlush1_4 t h15)]
      iintro ⟨⟨⟨HS, Hrest⟩, Hg⟩, Ho, ⟨%d0, H0⟩, ⟨%d1, H1⟩, ⟨%d2, H2⟩, ⟨%d3, H3⟩, ⟨%d4, H4⟩⟩
      iapply (runB1 c Set.univ (grid1.coords t) c1 c2 c3 _ _ _ _ _ _ _ _ _ _ _ _
        (iblk1 V c 0 t) (iblk1 V c 1 t) (iblk1 V c 2 t) (iblk1 V c 3 t) ((dat1 V c).before 4 t d4) (acc1 V c (t.val - 1) (by omega)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  iintro ⟨⟨HS, Hrest⟩, Hg⟩
  isplitl [HS Hrest]
  · isplitl [HS]
    · iexists _; iexact HS
    iexact Hrest
  iexact Hg

end Region

end Cert.KernelIdeal.Hand

end
-- ==== Proof.KernelIdeal.Run.lean ====
/-
  The program's run. @main is five items: ten host operations (the reshapes and the two rows of squared norms), the first
  kernel region, two reshapes, the second kernel region, nine host operations (the two means and their sum). Between two
  items every unscoped buffer is held at named contents: the launch memory, then each host stretch's operations applied,
  then each region's arrays at what its write-backs leave. Every weakly fair execution terminates with every unscoped buffer
  at the last of these.
-/
import proofs.«141939_j80676665688371_1_alg».proof.Proof.Gen.KernelIdeal.Launch
import proofs.«141939_j80676665688371_1_alg».proof.Proof.Gen.KernelIdeal.Skeleton
import proofs.«141939_j80676665688371_1_alg».proof.Proof.Gen.KernelIdeal.Points
import proofs.«141939_j80676665688371_1_alg».proof.Proof.KernelIdeal.Region0
import proofs.«141939_j80676665688371_1_alg».proof.Proof.KernelIdeal.Region1
import proofs.«141939_j80676665688371_1_alg».proof.Proof.Gen.KernelIdeal.Regions
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 (c : Dev nD) : Valuation τ sig (Elt F) := fun b => m (c, b)
/-- After the first host stretch. -/
abbrev W1 (c : Dev nD) : Valuation τ sig (Elt F) := StableHlo.after hostOps0 (W0 m c)
/-- The same read at the TensorCore's references: what the first region finds. -/
abbrev V1 : (c : Dev nD) → (b : Ref sig .tc) → Buf (Elt F) ((c : Thread nD τ).loc b) := fun c b => W1 m c b
/-- After region 0: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch. -/
abbrev W3 (c : Dev nD) : Valuation τ sig (Elt F) := StableHlo.after hostOps1 (W2 m c)
/-- What the second region finds. -/
abbrev V3 : (c : Dev nD) → (b : Ref sig .tc) → Buf (Elt F) ((c : Thread nD τ).loc b) := fun c b => W3 m c b
/-- After region 1: its arrays at what the write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: the final contents. -/
abbrev W5 (c : Dev nD) : Valuation τ sig (Elt F) := StableHlo.after hostOps2 (W4 m c)

/-- `main_arg0` reaches the end as launched: no host operation writes it and no region's window stages it. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

/-- `main_arg1` reaches the end as launched: no host operation writes it and no region's window stages it. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide : main_arg1 ∉ hostOps2_W)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-- What a region is handed besides its arrays makes the launch-side invariant, -/
theorem toPhiA0 (c : Dev nD) (P : sProp 𝕄) :
    iprop((∃ r, prngReg c r) ∗ P ∗ Pipeline.scopedRest spec0 c) ⊢ (Pipeline.ΦA spec0 c : sProp 𝕄) := by
  unfold Pipeline.ΦA
  iintro ⟨Hp, -, Hr⟩
  isplitl [Hr]; · iexact Hr
  iexact Hp
/-- and the launch-side invariant gives it back. -/
theorem ofPhiA0 (c : Dev nD) :
    (Pipeline.ΦA spec0 c : sProp 𝕄) ⊢ iprop((∃ r, prngReg c r) ∗ emp ∗ Pipeline.scopedRest spec0 c) := by
  unfold Pipeline.ΦA
  iintro ⟨Hr, Hp⟩
  isplitl [Hp]; · iexact Hp
  isplitr; · iempintro
  iexact Hr
theorem toPhiA1 (c : Dev nD) (P : sProp 𝕄) :
    iprop((∃ r, prngReg c r) ∗ P ∗ Pipeline.scopedRest spec1 c) ⊢ (Pipeline.ΦA spec1 c : sProp 𝕄) := by
  unfold Pipeline.ΦA
  iintro ⟨Hp, -, Hr⟩
  isplitl [Hr]; · iexact Hr
  iexact Hp
theorem ofPhiA1 (c : Dev nD) :
    (Pipeline.ΦA spec1 c : sProp 𝕄) ⊢ iprop((∃ r, prngReg c r) ∗ emp ∗ Pipeline.scopedRest spec1 c) := by
  unfold Pipeline.ΦA
  iintro ⟨Hr, Hp⟩
  isplitl [Hp]; · iexact Hp
  isplitr; · iempintro
  iexact Hr
/-- The last host stretch's exit is the last thread state beside the core owing nothing. -/
theorem lastStep (c : Dev nD) :
    iprop(StableHlo.held (c : Thread nD τ) (Pipeline.ucRefs τ sig) (W5 m c) ∗ R c)
      ⊢ (iprop(Tₙ m c ∗ ∃ W, owes (c : Thread nD τ) (0 : CellTallies nD τ sig Unit) W) : sProp 𝕄) := by
  iintro ⟨Hh, Hp, Ho⟩
  isplitl [Hh Hp]
  · isplitl [Hh]; · iexact Hh
    iexact Hp
  iexact Ho

/-! ## The regions as segments -/

set_option backward.isDefEq.respectTransparency.types false in
/-- Region 0 over the thread state: entered from every unscoped buffer at `W1`, left at `W2`. Its arrays are split out of
    the unscoped buffers and put back at the exit contents; the generator register and the scoped rest go into the region's
    invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA0 c _).trans (hin0 (V1 m) c)
  hout c := by
    rw [Pipeline.ownSems0_none]
    exact (hout0 (V1 m) c).trans (ofPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of
    the unscoped buffers and put back at the exit contents; the generator register and the scoped rest go into the region's
    invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c _).trans (hin1 (V3 m) c)
  hout c := by
    rw [Pipeline.ownSems0_none]
    exact (hout1 (V3 m) c).trans (ofPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (segs m) := (main_chain c).trans (by chain_rfl)

set_option backward.isDefEq.respectTransparency.types false in
/-- From any memory with zero counters, every weakly fair execution of @main terminates, nothing faulting, with every
    unscoped buffer at the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => lastStep m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

end Cert.KernelIdeal.Hand

end
-- ==== Proof.Spec.lean ====
/-
  The specification. Two clouds of 16384 points in three coordinates, each given as an array [1, 16384, 3].
  For a point x of one cloud and a point y of the other, the clamped squared distance is
  max (|x|² + |y|² − 2·⟨x, y⟩) 0, each of |x|², |y|², ⟨x, y⟩ a sum over the three coordinates started from the zero word.
  The loss is the mean over the first cloud of the distance to the nearest point of the second, plus the mean over the
  second cloud of the distance to the nearest point of the first. Everything is read on the extended reals; the four
  float literals the programs share (0, 2, +∞, 16384) are kept as their words.
-/
import Idealize.ShloMosaic.PureOps.Ideal
import Idealize.ShloMosaic.Lib.ValueIdx

noncomputable section

namespace Cert.Spec

open Idealize.ShloMosaic Idealize.ShloMosaic.ValueIdx

/-- The shape of an argument: one batch entry of 16384 points with 3 coordinates. -/
abbrev SArg : Shape := ⟨3, ![1, 16384, 3]⟩

/-- A cloud: an argument array read on the extended reals. -/
abbrev Cloud : Type := SArg.Idx → EReal

/-- The zero word. -/
def zero : EReal := Ideal.ofBits .f32 0x00000000#32
/-- The word of 2. -/
def two : EReal := Ideal.ofBits .f32 0x40000000#32
/-- The word of +∞. -/
def top : EReal := Ideal.ofBits .f32 0x7F800000#32
/-- The word of 16384. -/
def count : EReal := Ideal.ofBits .f32 0x46800000#32

/-- Coordinate `k` of point `n`. -/
def coord (X : Cloud) (n : Fin 16384) (k : Fin 3) : EReal := X (ix3 (0 : Fin 1) n k)

/-- The squared norm of point `n`. -/
def sqNorm (X : Cloud) (n : Fin 16384) : EReal := zero + ∑ k : Fin 3, coord X n k * coord X n k

/-- The inner product of point `n` of `X` and point `m` of `Y`. -/
def inner (X Y : Cloud) (n m : Fin 16384) : EReal := ∑ k : Fin 3, coord X n k * coord Y m k

/-- The clamped squared distance between point `n` of `X` and point `m` of `Y`, in the order both programs compute it. -/
def dist (X Y : Cloud) (n m : Fin 16384) : EReal := max ((sqNorm X n + sqNorm Y m) - two * inner X Y n m) zero

/-- The distance from point `n` of `X` to the nearest point of `Y`: the minimum over `Y`'s points, started from the word of +∞. -/
def nearest (X Y : Cloud) (n : Fin 16384) : EReal :=
  (Finset.univ : Finset (Fin 16384)).fold min top (fun m => dist X Y n m)

/-- The mean of 16384 values: their sum from the zero word, divided by the word of 16384. -/
def mean (f : Fin 16384 → EReal) : EReal := Ideal.div (zero + ∑ n : Fin 16384, f n) count

/-- The loss. -/
def loss (P T : Cloud) : EReal := mean (nearest P T) + mean (nearest T P)

/-! ## The same through the four arrays a kernel region reads

A region is handed a cloud as an array [16384, 3], the squared norms of its points as a column [16384, 1], the other cloud
as an array [16384, 3] and its squared norms as a row [1, 16384]. -/

/-- The shape of a cloud as a region reads it. -/
abbrev SPts : Shape := ⟨2, ![16384, 3]⟩
/-- The shape of a column of 16384 values. -/
abbrev SCol : Shape := ⟨2, ![16384, 1]⟩
/-- The shape of a row of 16384 values. -/
abbrev SRow : Shape := ⟨2, ![1, 16384]⟩

/-- The clamped squared distance between row `n` of `A0` and row `m` of `A1`, their squared norms taken from the column `A2` and the row `A3`. -/
def arrDist (A0 A1 : SPts.Idx → EReal) (A2 : SCol.Idx → EReal) (A3 : SRow.Idx → EReal) (n m : Fin 16384) : EReal :=
  max ((A2 (ix2 n (0 : Fin 1)) + A3 (ix2 (0 : Fin 1) m)) - two * ∑ k : Fin 3, A0 (ix2 n k) * A1 (ix2 m k)) zero

/-- Its minimum over the rows of `A1`, started from the word of +∞. -/
def arrMin (A0 A1 : SPts.Idx → EReal) (A2 : SCol.Idx → EReal) (A3 : SRow.Idx → EReal) (n : Fin 16384) : EReal :=
  (Finset.univ : Finset (Fin 16384)).fold min top (fun m => arrDist A0 A1 A2 A3 n m)

/-- The distance does not depend on which cloud is named first: addition and multiplication of extended reals commute. -/
theorem dist_comm (X Y : Cloud) (n m : Fin 16384) : dist X Y n m = dist Y X m n := by
  unfold dist inner
  rw [add_comm (sqNorm X n) (sqNorm Y m)]
  congr 3
  exact Finset.sum_congr rfl fun k _ => mul_comm _ _

end Cert.Spec

end
-- ==== Proof.KernelIdeal.HostValue.lean ====
/-
  The host operations around the two kernel regions, on the extended reals. Before the first region the two argument
  clouds are reshaped to [16384, 3] and each cloud's squared norms are summed; the first region is handed the first
  cloud, the second, the first's norms as a column and the second's as a row; the second region the same with the clouds
  exchanged. After the regions each output column is summed, divided by the word of 16384, and the two means are added.
-/
import proofs.«141939_j80676665688371_1_alg».proof.Proof.KernelIdeal.Run
import proofs.«141939_j80676665688371_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ) (c : Dev nD)

/-- The first argument cloud, as launched. -/
abbrev argP : Vec Ideal S1x16384x3 .f32 := m ((c : Thread nD τ).loc main_arg0)
/-- The second argument cloud, as launched. -/
abbrev argT : Vec Ideal S1x16384x3 .f32 := m ((c : Thread nD τ).loc main_arg1)

/-! ## What the first host stretch leaves -/

/-- A cloud reshaped to [16384, 3]. -/
abbrev pts (X : Vec Ideal S1x16384x3 .f32) : FVec Ideal S16384x3 .f32 := shapeCast S16384x3 X shapeCasts_S1x16384x3_S16384x3
/-- The squared norms of a reshaped cloud's points. -/
abbrev norms (Y : FVec Ideal S16384x3 .f32) : FVec Ideal S16384 .f32 :=
  Host.reduceAdd (mulf Y Y) (constant (F := Ideal) S_ .f32 0x00000000#32) reducesTo_S16384x3_S16384_d1 h_S_

theorem W1_v0 : (W1 m c (Proc.devRef .tc main_v0) : Vec Ideal S16384x3 .f32) = pts (argP m c) := by
  show StableHlo.after hostOps0 (W0 m c) (Proc.devRef .tc main_v0) = _
  after_results; rfl
theorem W1_v1 : (W1 m c (Proc.devRef .tc main_v1) : Vec Ideal S16384x3 .f32) = pts (argT m c) := by
  show StableHlo.after hostOps0 (W0 m c) (Proc.devRef .tc main_v1) = _
  after_results; rfl
theorem W1_v3 : (W1 m c (Proc.devRef .tc main_v3) : Vec Ideal S16384 .f32) = norms (pts (argP m c)) := by
  show StableHlo.after hostOps0 (W0 m c) (Proc.devRef .tc main_v3) = _
  after_results; rfl
theorem W1_v5 : (W1 m c (Proc.devRef .tc main_v5) : Vec Ideal S16384 .f32) = norms (pts (argT m c)) := by
  show StableHlo.after hostOps0 (W0 m c) (Proc.devRef .tc main_v5) = _
  after_results; rfl
theorem W1_v6 : (W1 m c (Proc.devRef .tc main_v6) : Vec Ideal S16384x1 .f32)
    = shapeCast S16384x1 (norms (pts (argP m c))) shapeCasts_S16384_S16384x1 := by
  show StableHlo.after hostOps0 (W0 m c) (Proc.devRef .tc main_v6) = _
  after_results; rfl
theorem W1_v7 : (W1 m c (Proc.devRef .tc main_v7) : Vec Ideal S1x16384 .f32)
    = shapeCast S1x16384 (norms (pts (argT m c))) shapeCasts_S16384_S1x16384 := by
  show StableHlo.after hostOps0 (W0 m c) (Proc.devRef .tc main_v7) = _
  after_results; rfl

/-! ## Reading the layout operations and the norms at an index -/

/-- Point `n`, coordinate `k` of a reshaped cloud is the cloud's. -/
theorem pts_apply (X : Vec Ideal S1x16384x3 .f32) (n : Fin 16384) (k : Fin 3) :
    pts X (ix2 n k) = Cert.Spec.coord X n k := by
  unfold Cert.Spec.coord
  exact shapeCast_apply X shapeCasts_S1x16384x3_S16384x3 (ix2 n k) (ix3 (0 : Fin 1) n k)
    (by rewrite [Shape.rowMajor_val_three, Shape.rowMajor_val_two]
        have hn : n.val < 16384 := n.isLt; have hk : k.val < 3 := k.isLt
        show (0 * 16384 + n.val) * 3 + k.val = n.val * 3 + k.val; omega)

/-- The squared norm of point `n`: the zero word plus the three squares. -/
theorem norms_apply (Y : FVec Ideal S16384x3 .f32) (n : Fin 16384) :
    norms Y (ix1 n) = Cert.Spec.zero + ∑ k : Fin 3, Y (ix2 n k) * Y (ix2 n k) := by
  unfold norms
  simp only [Host.reduceAdd, Ideal.hostReduceAdd_def]
  rw [Ideal.hostReduceAdd_single reducesTo_S16384x3_S16384_d1 (by decide)]
  refine congrArg (_ + ·) (Finset.sum_congr rfl fun k _ => ?_)
  exact congrArg (mulf Y Y) (funext fun a => Fin.ext (by match a with | ⟨0, _⟩ => rfl | ⟨1, _⟩ => rfl))

/-- A vector of 16384 values as a column, -/
theorem col_apply (v : FVec Ideal S16384 .f32) (n : Fin 16384) :
    shapeCast S16384x1 v shapeCasts_S16384_S16384x1 (ix2 n (0 : Fin 1)) = v (ix1 n) :=
  shapeCast_apply v shapeCasts_S16384_S16384x1 (ix2 n (0 : Fin 1)) (ix1 n)
    (by rewrite [Shape.rowMajor_val_one, Shape.rowMajor_val_two]; show n.val = n.val * 1 + 0; omega)
/-- and as a row. -/
theorem row_apply (v : FVec Ideal S16384 .f32) (n : Fin 16384) :
    shapeCast S1x16384 v shapeCasts_S16384_S1x16384 (ix2 (0 : Fin 1) n) = v (ix1 n) :=
  shapeCast_apply v shapeCasts_S16384_S1x16384 (ix2 (0 : Fin 1) n) (ix1 n)
    (by rewrite [Shape.rowMajor_val_one, Shape.rowMajor_val_two]; show n.val = 0 * 16384 + n.val; omega)

/-! ## The region's distance through the reshaped clouds is the specification's -/

/-- A cloud's squared norms as a column, -/
abbrev normsCol (X : Vec Ideal S1x16384x3 .f32) : FVec Ideal S16384x1 .f32 :=
  shapeCast S16384x1 (norms (pts X)) shapeCasts_S16384_S16384x1
/-- and as a row. -/
abbrev normsRow (X : Vec Ideal S1x16384x3 .f32) : FVec Ideal S1x16384 .f32 :=
  shapeCast S1x16384 (norms (pts X)) shapeCasts_S16384_S1x16384

theorem arrDist_clouds (X Y : Vec Ideal S1x16384x3 .f32) (n m : Fin 16384) :
    Cert.Spec.arrDist (pts X) (pts Y) (normsCol X) (normsRow Y) n m = Cert.Spec.dist X Y n m := by
  unfold Cert.Spec.arrDist Cert.Spec.dist Cert.Spec.sqNorm Cert.Spec.inner normsCol normsRow
  rw [col_apply, row_apply, norms_apply, norms_apply]
  simp only [pts_apply]

theorem arrMin_clouds (X Y : Vec Ideal S1x16384x3 .f32) (n : Fin 16384) :
    Cert.Spec.arrMin (pts X) (pts Y) (normsCol X) (normsRow Y) n = Cert.Spec.nearest X Y n := by
  unfold Cert.Spec.arrMin Cert.Spec.nearest
  exact congrArg (fun f => (Finset.univ : Finset (Fin 16384)).fold min Cert.Spec.top f) (funext fun m => arrDist_clouds X Y n m)

/-! ## The last host stretch: two means and their sum -/

/-- The sum of a column of 16384 values from the zero word. -/
theorem colSum_apply (o : FVec Ideal S16384x1 .f32) (f : Fin 16384 → EReal) (h : ∀ n, o (ix2 n (0 : Fin 1)) = f n) (i : S_.Idx) :
    Host.reduceAdd o (constant (F := Ideal) S_ .f32 0x00000000#32) reducesTo_S16384x1_S_d0_1 h_S_ i
      = Cert.Spec.zero + ∑ n : Fin 16384, f n := by
  simp only [Host.reduceAdd, Ideal.hostReduceAdd_def]
  rw [Ideal.hostReduceAdd_total reducesTo_S16384x1_S_d0_1 (fun b => b.elim0), sum_idx2]
  refine congrArg (_ + ·) (Finset.sum_congr rfl fun n _ => ?_)
  rw [Fin.sum_univ_one]
  exact h n

/-- Two output columns summed, each divided by the word of 16384, and added: the sum of the two means. -/
theorem tail_value (o0 o1 : FVec Ideal S16384x1 .f32) (f0 f1 : Fin 16384 → EReal)
    (h0 : ∀ n, o0 (ix2 n (0 : Fin 1)) = f0 n) (h1 : ∀ n, o1 (ix2 n (0 : Fin 1)) = f1 n) :
    addf (Host.divf (Host.reduceAdd o0 (constant (F := Ideal) S_ .f32 0x00000000#32) reducesTo_S16384x1_S_d0_1 h_S_)
            (constant (F := Ideal) S_ .f32 0x46800000#32))
         (Host.divf (Host.reduceAdd o1 (constant (F := Ideal) S_ .f32 0x00000000#32) reducesTo_S16384x1_S_d0_1 h_S_)
            (constant (F := Ideal) S_ .f32 0x46800000#32))
      = fun _ => Cert.Spec.mean f0 + Cert.Spec.mean f1 := by
  funext i
  rw [addf_apply]
  simp only [Host.divf, Ideal.hostDivf_def, colSum_apply o0 f0 h0, colSum_apply o1 f1 h1, constant_apply]
  rfl

/-! ## What the second region finds -/

/-- The first region's input arrays leave it as they entered (the write-backs touch the output only). -/
theorem W2_in (w : Fin cfg0.W) (hw : (cfg0.win w).isOut = false) :
    W2 m c (Proc.devRef .tc (Pipeline.arrRef spec0 w)) = V1 m c (Pipeline.arrRef spec0 w) :=
  (W2_arr m c w).trans (((dat0 (V1 m) c).arrAt_in w hw _).trans (A_eq0 (V1 m) c w))

theorem W3_v1 : (W3 m c (Proc.devRef .tc main_v1) : Vec Ideal S16384x3 .f32) = pts (argT m c) :=
  calc (W3 m c (Proc.devRef .tc main_v1) : Vec Ideal S16384x3 .f32)
    _ = W2 m c (Proc.devRef .tc main_v1) := StableHlo.after_of_writes_sub hostOps1 _ hostOps1_writes (by decide : main_v1 ∉ hostOps1_W)
    _ = V1 m c main_v1 := W2_in m c 1 rfl
    _ = pts (argT m c) := W1_v1 m c
theorem W3_v0 : (W3 m c (Proc.devRef .tc main_v0) : Vec Ideal S16384x3 .f32) = pts (argP m c) :=
  calc (W3 m c (Proc.devRef .tc main_v0) : Vec Ideal S16384x3 .f32)
    _ = W2 m c (Proc.devRef .tc main_v0) := StableHlo.after_of_writes_sub hostOps1 _ hostOps1_writes (by decide : main_v0 ∉ hostOps1_W)
    _ = V1 m c main_v0 := W2_in m c 0 rfl
    _ = pts (argP m c) := W1_v0 m c
/-- The norms the first stretch computed are still there after the first region. -/
theorem W2_v5 : (W2 m c (Proc.devRef .tc main_v5) : Vec Ideal S16384 .f32) = norms (pts (argT m c)) :=
  (W2_of_ne m c main_v5 (by decide)).trans (W1_v5 m c)
theorem W2_v3 : (W2 m c (Proc.devRef .tc main_v3) : Vec Ideal S16384 .f32) = norms (pts (argP m c)) :=
  (W2_of_ne m c main_v3 (by decide)).trans (W1_v3 m c)
theorem W3_v9 : (W3 m c (Proc.devRef .tc main_v9) : Vec Ideal S16384x1 .f32) = normsCol (argT m c) := by
  have e : (W3 m c (Proc.devRef .tc main_v9) : Vec Ideal S16384x1 .f32)
      = shapeCast S16384x1 (W2 m c (Proc.devRef .tc main_v5) : Vec Ideal S16384 .f32) shapeCasts_S16384_S16384x1 := by
    show StableHlo.after hostOps1 (W2 m c) (Proc.devRef .tc main_v9) = _
    after_results; rfl
  rw [e, W2_v5]
theorem W3_v10 : (W3 m c (Proc.devRef .tc main_v10) : Vec Ideal S1x16384 .f32) = normsRow (argP m c) := by
  have e : (W3 m c (Proc.devRef .tc main_v10) : Vec Ideal S1x16384 .f32)
      = shapeCast S1x16384 (W2 m c (Proc.devRef .tc main_v3) : Vec Ideal S16384 .f32) shapeCasts_S16384_S1x16384 := by
    show StableHlo.after hostOps1 (W2 m c) (Proc.devRef .tc main_v10) = _
    after_results; rfl
  rw [e, W2_v3]

/-! ## Where the two output columns sit when the last stretch begins -/

/-- The first region's output column is untouched by the two reshapes and by the second region. -/
theorem W4_v8 : W4 m c (Proc.devRef .tc main_v8) = (dat0 (V1 m) c).arrAt 4 cfg0.N :=
  calc W4 m c (Proc.devRef .tc main_v8)
    _ = W3 m c (Proc.devRef .tc main_v8) := W4_of_ne m c main_v8 (by decide)
    _ = W2 m c (Proc.devRef .tc main_v8) := StableHlo.after_of_writes_sub hostOps1 _ hostOps1_writes (by decide : main_v8 ∉ hostOps1_W)
    _ = (dat0 (V1 m) c).arrAt 4 cfg0.N := W2_arr m c 4
/-- The second region's output column is what its write-backs leave. -/
theorem W4_v11 : W4 m c (Proc.devRef .tc main_v11) = (dat1 (V3 m) c).arrAt 4 cfg1.N := W4_arr m c 4

/-- The result after the last stretch, over the two output columns. -/
theorem W5_v16 : (W5 m c (Proc.devRef .tc main_v16) : Vec Ideal S_ .f32)
    = addf (Host.divf (Host.reduceAdd (W4 m c (Proc.devRef .tc main_v8) : FVec Ideal S16384x1 .f32)
              (constant (F := Ideal) S_ .f32 0x00000000#32) reducesTo_S16384x1_S_d0_1 h_S_) (constant (F := Ideal) S_ .f32 0x46800000#32))
           (Host.divf (Host.reduceAdd (W4 m c (Proc.devRef .tc main_v11) : FVec Ideal S16384x1 .f32)
              (constant (F := Ideal) S_ .f32 0x00000000#32) reducesTo_S16384x1_S_d0_1 h_S_) (constant (F := Ideal) S_ .f32 0x46800000#32)) := by
  show StableHlo.after hostOps2 (W4 m c) (Proc.devRef .tc main_v16) = _
  after_results <;> rfl

end Cert.KernelIdeal.Hand

end
-- ==== Proof.KernelIdeal.Payload.lean ====
/-
  The kernel's arithmetic at one grid point, read at an index on the extended reals. The body forms, for the tile of a
  block of 1024 points of one cloud against a block of 1024 points of the other, the clamped squared distances
  max (|a|² + |b|² − 2·⟨a, b⟩) 0 and takes each row's minimum from the word of +∞; at the first tile of a row of the grid
  that is what the scratch receives, at a later tile its minimum with what the scratch held.
-/
import proofs.«141939_j80676665688371_1_alg».proof.Proof.Gen.KernelIdeal.Skeleton
import proofs.«141939_j80676665688371_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Payload

open Idealize.ShloMosaic Idealize.ShloMosaic.ValueIdx Cert.KernelIdeal Cert.KernelIdeal.Gen

/-! ## Two layout operations read at an index -/

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The product of the two blocks at an index

The left operand is indexed (row, coordinate) and the right one (coordinate, column): at output index `(r, c)` and
contraction position `q` the left operand is read at `(r, q)` and the right one at `(q, c)`. The four lemmas below say so
axis by axis. -/

theorem lhs_axis0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
theorem lhs_axis1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q
theorem rhs_axis0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q
theorem rhs_axis1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- The block product into the zero splat, at `(r, c)`: the sum over the three coordinates of row `r` of the left
    operand times column `c` of the right. -/
theorem matmul_apply_ix (lhs : FVec Ideal S1024x3 .bf16) (rhs : FVec Ideal S3x1024 .bf16) (r c : Fin 1024) :
    matmul dot_S1024x3_S3x1024_S1024x1024_1_0_0_1_n_n none lhs rhs (constant (F := Ideal) S1024x1024 .f32 0x00000000#32) (ix2 r c)
      = ∑ k : Fin 3, lhs (ix2 r k) * rhs (ix2 k c) := by
  simp only [matmul]
  rw [Ideal.matmul_constant_zero_apply, ← Equiv.sum_comp (contrEquiv1 dot_S1024x3_S3x1024_S1024x1024_1_0_0_1_n_n 3 rfl rfl).symm]
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 r c) ((contrEquiv1 dot_S1024x3_S3x1024_S1024x1024_1_0_0_1_n_n 3 rfl rfl).symm k) = ix2 r k := funext fun a => Fin.ext (by
    match a with
    | ⟨0, _⟩ => exact lhs_axis0 _ _
    | ⟨1, _⟩ => exact (lhs_axis1 _ _).trans hk)
  have er : dot_S1024x3_S3x1024_S1024x1024_1_0_0_1_n_n.rhsIdx (ix2 r c) ((contrEquiv1 dot_S1024x3_S3x1024_S1024x1024_1_0_0_1_n_n 3 rfl rfl).symm k) = ix2 k c := funext fun a => Fin.ext (by
    match a with
    | ⟨0, _⟩ => exact (rhs_axis0 _ _).trans hk
    | ⟨1, _⟩ => exact rhs_axis1 _ _)
  rw [el, er]

/-! ## The minimum over a row -/

/-- The minimum-reduction of a `1024 × 1024` array along its rows, at row `r`: the fold of `min` from the accumulator's value over
    the row's entries. -/
theorem rowMin_apply (src : FVec Ideal S1024x1024 .f32) (h : S1024x1024.Reduces [1] S1024) (hφ : FKind.Formats .f32)
    (hacc : (0x7F800000#32 : BitVec 32) = FKind.minimumf.neutral .f32 hφ) (r : Fin 1024) :
    multiReduction (F := Ideal) .minimumf [1] S1024 src 0x7F800000#32 h hφ hacc (ix1 r)
      = (Finset.univ : Finset (Fin 1024)).fold min (Ideal.ofBits .f32 0x7F800000#32) (fun c => src (ix2 r c)) := by
  rw [multiReduction_minimumf_eq_fold]
  refine (h.fold_filter_drop_single _ _ src (ix1 r)).trans ?_
  refine congrArg (fun f => (Finset.univ : Finset (Fin 1024)).fold min (Ideal.ofBits .f32 0x7F800000#32) f) (funext fun c => ?_)
  exact congrArg src (funext fun a => Fin.ext (by match a with | ⟨0, _⟩ => rfl | ⟨1, _⟩ => rfl))

/-! ## The tile's distances and row minima -/

/-- The tile's clamped squared distance between row `r` of the first block and row `c` of the second. -/
def tileDist (x0 x1 : Vec Ideal S1024x3 .f32) (x2 : Vec Ideal S1024x1 .f32) (x3 : Vec Ideal S1x1024 .f32) (r c : Fin 1024) : EReal :=
  max ((x2 (ix2 r (0 : Fin 1)) + x3 (ix2 (0 : Fin 1) c)) - Cert.Spec.two * ∑ k : Fin 3, x0 (ix2 r k) * x1 (ix2 c k)) Cert.Spec.zero

/-- The minimum of row `r` of the tile, started from the word of +∞. -/
def tileMin (x0 x1 : Vec Ideal S1024x3 .f32) (x2 : Vec Ideal S1024x1 .f32) (x3 : Vec Ideal S1x1024 .f32) (r : Fin 1024) : EReal :=
  (Finset.univ : Finset (Fin 1024)).fold min Cert.Spec.top (fun c => tileDist x0 x1 x2 x3 r c)

/-- The array of clamped distances the body forms, at `(r, c)`. -/
theorem dist_apply (x0 x1 : Vec Ideal S1024x3 .f32) (x2 : Vec Ideal S1024x1 .f32) (x3 : Vec Ideal S1x1024 .f32)
    (h0 : S1024x3.ShapeCasts S1024x3) (hb : FTy.bits .bf16 < FTy.bits .f32) (ht : S1024x3.Transposes [1, 0] S3x1024)
    (h2 : S1024x1.ShapeCasts S1024x1) (h3 : S1x1024.ShapeCasts S1x1024)
    (hb2 : S1024x1.Broadcasts S1024x1024) (hb3 : S1x1024.Broadcasts S1024x1024) (r c : Fin 1024) :
    maximumf
        (subf (addf (broadcastTo S1024x1024 (shapeCast S1024x1 x2 h2) hb2) (broadcastTo S1024x1024 (shapeCast S1x1024 x3 h3) hb3))
          (mulf (broadcast S1024x1024 (Scalar.ofBits (F := Ideal) .f32 0x40000000#32))
            (matmul (F := Ideal) dot_S1024x3_S3x1024_S1024x1024_1_0_0_1_n_n none (truncf .bf16 (shapeCast S1024x3 x0 h0) hb)
              (transpose S3x1024 [1, 0] (truncf .bf16 (shapeCast S1024x3 x1 h0) hb) ht) (constant S1024x1024 .f32 0x00000000#32))))
        (broadcast S1024x1024 (Scalar.ofBits (F := Ideal) .f32 0x00000000#32)) (ix2 r c)
      = tileDist x0 x1 x2 x3 r c := by
  have hA : broadcastTo S1024x1024 (shapeCast S1024x1 x2 h2) hb2 (ix2 r c) = x2 (ix2 r (0 : Fin 1)) :=
    (broadcastTo_a1_ab_apply _ _ r c).trans (congrFun (shapeCast_self x2 h2) _)
  have hB : broadcastTo S1024x1024 (shapeCast S1x1024 x3 h3) hb3 (ix2 r c) = x3 (ix2 (0 : Fin 1) c) :=
    (broadcastTo_1b_ab_apply _ _ r c).trans (congrFun (shapeCast_self x3 h3) _)
  have hM : matmul (F := Ideal) dot_S1024x3_S3x1024_S1024x1024_1_0_0_1_n_n none (truncf .bf16 (shapeCast S1024x3 x0 h0) hb)
        (transpose S3x1024 [1, 0] (truncf .bf16 (shapeCast S1024x3 x1 h0) hb) ht) (constant S1024x1024 .f32 0x00000000#32) (ix2 r c)
      = ∑ k : Fin 3, x0 (ix2 r k) * x1 (ix2 c k) := by
    refine (matmul_apply_ix _ _ r c).trans (Finset.sum_congr rfl fun k _ => ?_)
    have e0 : truncf (F := Ideal) .bf16 (shapeCast S1024x3 x0 h0) hb (ix2 r k) = x0 (ix2 r k) :=
      (truncf_apply (shapeCast S1024x3 x0 h0) hb (ix2 r k)).trans (congrFun (shapeCast_self x0 h0) _)
    have e1 : transpose S3x1024 [1, 0] (truncf (F := Ideal) .bf16 (shapeCast S1024x3 x1 h0) hb) ht (ix2 k c) = x1 (ix2 c k) :=
      (transpose_ix2_apply _ ht k c).trans ((truncf_apply (shapeCast S1024x3 x1 h0) hb (ix2 c k)).trans (congrFun (shapeCast_self x1 h0) _))
    rw [e0, e1]
  show max ((broadcastTo S1024x1024 (shapeCast S1024x1 x2 h2) hb2 (ix2 r c) + broadcastTo S1024x1024 (shapeCast S1x1024 x3 h3) hb3 (ix2 r c))
      - Ideal.ofBits .f32 0x40000000#32 * matmul (F := Ideal) dot_S1024x3_S3x1024_S1024x1024_1_0_0_1_n_n none (truncf .bf16 (shapeCast S1024x3 x0 h0) hb)
          (transpose S3x1024 [1, 0] (truncf .bf16 (shapeCast S1024x3 x1 h0) hb) ht) (constant S1024x1024 .f32 0x00000000#32) (ix2 r c))
      (Ideal.ofBits .f32 0x00000000#32) = _
  rw [hA, hB, hM]
  rfl

/-- The tile's row minima, as a column, at row `r`. -/
theorem pay1_apply (x0 x1 : Vec Ideal S1024x3 .f32) (x2 : Vec Ideal S1024x1 .f32) (x3 : Vec Ideal S1x1024 .f32) (r : Fin 1024) (u : Fin 1) :
    k0_pay1 (F := Ideal) x0 x1 x2 x3 (ix2 r u) = tileMin x0 x1 x2 x3 r := by
  unfold k0_pay1
  refine (shapeCast_a_a1_apply _ _ r u).trans ?_
  refine (rowMin_apply _ _ _ _ r).trans ?_
  unfold tileMin Cert.Spec.top
  exact congrArg (fun f => (Finset.univ : Finset (Fin 1024)).fold min (Ideal.ofBits .f32 0x7F800000#32) f)
    (funext fun c => dist_apply x0 x1 x2 x3 _ _ _ _ _ _ _ r c)

/-- What the first tile of a row stores: the tile's row minima. -/
theorem pay2_apply (x0 x1 : Vec Ideal S1024x3 .f32) (x2 : Vec Ideal S1024x1 .f32) (x3 : Vec Ideal S1x1024 .f32) (r : Fin 1024) :
    k0_pay2 (F := Ideal) x0 x1 x2 x3 (ix2 r (0 : Fin 1)) = tileMin x0 x1 x2 x3 r := by
  unfold k0_pay2
  exact (congrFun (shapeCast_self _ _) _).trans (pay1_apply x0 x1 x2 x3 r 0)

/-- What a later tile stores: the minimum of what the scratch held and the tile's row minima. -/
theorem pay3_apply (x0 x1 : Vec Ideal S1024x3 .f32) (x2 : Vec Ideal S1024x1 .f32) (x3 : Vec Ideal S1x1024 .f32)
    (y : Vec Ideal S1024x1 .f32) (r : Fin 1024) :
    k0_pay3 (F := Ideal) x0 x1 x2 x3 y (ix2 r (0 : Fin 1)) = min (y (ix2 r (0 : Fin 1))) (tileMin x0 x1 x2 x3 r) := by
  unfold k0_pay3
  refine (congrFun (shapeCast_self _ _) _).trans ?_
  exact congrArg (min (y (ix2 r (0 : Fin 1)))) (pay1_apply x0 x1 x2 x3 r 0)

/-- The second call's kernel has the same body. -/
theorem k1_pay2_eq {F : FTy → Type} [FloatOps F] : @k1_pay2 F _ = @k0_pay2 F _ := rfl
theorem k1_pay3_eq {F : FTy → Type} [FloatOps F] : @k1_pay3 F _ = @k0_pay3 F _ := rfl

/-- The same two facts for the second call's kernel, whose body is the first's. -/
theorem pay2_apply1 (x0 x1 : Vec Ideal S1024x3 .f32) (x2 : Vec Ideal S1024x1 .f32) (x3 : Vec Ideal S1x1024 .f32) (r : Fin 1024) :
    k1_pay2 (F := Ideal) x0 x1 x2 x3 (ix2 r (0 : Fin 1)) = tileMin x0 x1 x2 x3 r := by
  rw [k1_pay2_eq]; exact pay2_apply x0 x1 x2 x3 r
theorem pay3_apply1 (x0 x1 : Vec Ideal S1024x3 .f32) (x2 : Vec Ideal S1024x1 .f32) (x3 : Vec Ideal S1x1024 .f32)
    (y : Vec Ideal S1024x1 .f32) (r : Fin 1024) :
    k1_pay3 (F := Ideal) x0 x1 x2 x3 y (ix2 r (0 : Fin 1)) = min (y (ix2 r (0 : Fin 1))) (tileMin x0 x1 x2 x3 r) := by
  rw [k1_pay3_eq]; exact pay3_apply x0 x1 x2 x3 y r

end Cert.KernelIdeal.Payload

end
-- ==== Proof.KernelIdeal.Value0.lean ====
/-
  What region 0 leaves in its output array, on the extended reals: row n holds the minimum, over all 16384 rows of the
  second array, of the clamped squared distance to row n of the first. The scratch after point 16·i + j holds, for each
  row of block i, the minimum over the rows of blocks 0 … j; the output block i is written at j = 15, and the sixteen
  output blocks cover the array.
-/
import proofs.«141939_j80676665688371_1_alg».proof.Proof.Gen.KernelIdeal.Launch
import proofs.«141939_j80676665688371_1_alg».proof.Proof.Gen.KernelIdeal.Skeleton
import proofs.«141939_j80676665688371_1_alg».proof.Proof.Gen.KernelIdeal.Points
import proofs.«141939_j80676665688371_1_alg».proof.Proof.KernelIdeal.Region0
import proofs.«141939_j80676665688371_1_alg».proof.Proof.KernelIdeal.Payload
import proofs.«141939_j80676665688371_1_alg».proof.Proof.Spec
import Idealize.ShloMosaic.Lib.ValueIdx
import Idealize.ShloMosaic.PureOps.Ideal.Laws
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Payload

variable (V : (c : Dev nD) → (b : Ref sig .tc) → Buf (Elt Ideal) ((c : Thread nD τ).loc b))

/-! ## The blocks and the arrays, by their literal types -/

/-- The block of the first array at point `t`. -/
abbrev blkX0 (c : Dev nD) (t : Fin cfg0.N) : Vec Ideal S1024x3 .f32 := iblk0 V c 0 t
/-- The block of the second array at point `t`. -/
abbrev blkY0 (c : Dev nD) (t : Fin cfg0.N) : Vec Ideal S1024x3 .f32 := iblk0 V c 1 t
/-- The block of the first array's squared norms at point `t`. -/
abbrev blkP0 (c : Dev nD) (t : Fin cfg0.N) : Vec Ideal S1024x1 .f32 := iblk0 V c 2 t
/-- The block of the second array's squared norms at point `t`. -/
abbrev blkQ0 (c : Dev nD) (t : Fin cfg0.N) : Vec Ideal S1x1024 .f32 := iblk0 V c 3 t

/-- The first array, as the region finds it. -/
abbrev arrX0 (c : Dev nD) : Vec Ideal S16384x3 .f32 := V c (Pipeline.arrRef spec0 0)
/-- The second array. -/
abbrev arrY0 (c : Dev nD) : Vec Ideal S16384x3 .f32 := V c (Pipeline.arrRef spec0 1)
/-- The column of the first array's squared norms. -/
abbrev arrP0 (c : Dev nD) : Vec Ideal S16384x1 .f32 := V c (Pipeline.arrRef spec0 2)
/-- The row of the second array's squared norms. -/
abbrev arrQ0 (c : Dev nD) : Vec Ideal S1x16384 .f32 := V c (Pipeline.arrRef spec0 3)

/-! ## Where a block sits in its array -/

/-- The block indices over the grid: point `t` is at row `t / 16` and column `t % 16` of the grid; the first array, its norms
    and the output move with the row, the second array and its norms with the column. -/
theorem blockIdx0 : ∀ t : Fin cfg0.N,
    (cfg0.win 0).index t (0 : Fin 2) = t.val / 16 ∧ (cfg0.win 0).index t (1 : Fin 2) = 0
    ∧ (cfg0.win 1).index t (0 : Fin 2) = t.val % 16 ∧ (cfg0.win 1).index t (1 : Fin 2) = 0
    ∧ (cfg0.win 2).index t (0 : Fin 2) = t.val / 16 ∧ (cfg0.win 2).index t (1 : Fin 2) = 0
    ∧ (cfg0.win 3).index t (0 : Fin 2) = 0 ∧ (cfg0.win 3).index t (1 : Fin 2) = t.val % 16
    ∧ (cfg0.win 4).index t (0 : Fin 2) = t.val / 16 ∧ (cfg0.win 4).index t (1 : Fin 2) = 0 :=
  (by decide +kernel : ∀ t : Fin grid0.N, _)

/-- Row `r`, coordinate `k` of the first array's block at `t` is row `1024 · (t / 16) + r` of the array. -/
theorem blockRead0_0 (c : Dev nD) (t : Fin cfg0.N) (r : Fin 1024) (k : Fin 3) (n : Fin 16384)
    (hn : n.val = 1024 * (t.val / 16) + r.val) : blkX0 V c t (ix2 r k) = arrX0 V c (ix2 n k) := by
  obtain ⟨e0, e1, -⟩ := blockIdx0 t
  unfold blkX0 iblk0
  rw [View.read_apply]
  show V c (Pipeline.arrRef spec0 0) (((cfg0.win 0).blk t).view.emb (ix2 r k)) = V c (Pipeline.arrRef spec0 0) (ix2 n k)
  congr 1
  funext a
  apply Fin.ext
  match a with
  | ⟨0, _⟩ => show (cfg0.win 0).index t (0 : Fin 2) * 1024 + 1 * r.val = n.val; rw [e0, hn]; omega
  | ⟨1, _⟩ => show (cfg0.win 0).index t (1 : Fin 2) * 3 + 1 * k.val = k.val; rw [e1]; omega

/-- Row `r`, coordinate `k` of the second array's block at `t` is row `1024 · (t % 16) + r` of the array. -/
theorem blockRead0_1 (c : Dev nD) (t : Fin cfg0.N) (r : Fin 1024) (k : Fin 3) (m : Fin 16384)
    (hm : m.val = 1024 * (t.val % 16) + r.val) : blkY0 V c t (ix2 r k) = arrY0 V c (ix2 m k) := by
  obtain ⟨-, -, e0, e1, -⟩ := blockIdx0 t
  unfold blkY0 iblk0
  rw [View.read_apply]
  show V c (Pipeline.arrRef spec0 1) (((cfg0.win 1).blk t).view.emb (ix2 r k)) = V c (Pipeline.arrRef spec0 1) (ix2 m k)
  congr 1
  funext a
  apply Fin.ext
  match a with
  | ⟨0, _⟩ => show (cfg0.win 1).index t (0 : Fin 2) * 1024 + 1 * r.val = m.val; rw [e0, hm]; omega
  | ⟨1, _⟩ => show (cfg0.win 1).index t (1 : Fin 2) * 3 + 1 * k.val = k.val; rw [e1]; omega

/-- Row `r` of the block of the first array's norms at `t` is row `1024 · (t / 16) + r` of the column. -/
theorem blockRead0_2 (c : Dev nD) (t : Fin cfg0.N) (r : Fin 1024) (n : Fin 16384)
    (hn : n.val = 1024 * (t.val / 16) + r.val) : blkP0 V c t (ix2 r (0 : Fin 1)) = arrP0 V c (ix2 n (0 : Fin 1)) := by
  obtain ⟨-, -, -, -, e0, e1, -⟩ := blockIdx0 t
  unfold blkP0 iblk0
  rw [View.read_apply]
  show V c (Pipeline.arrRef spec0 2) (((cfg0.win 2).blk t).view.emb (ix2 r (0 : Fin 1))) = V c (Pipeline.arrRef spec0 2) (ix2 n (0 : Fin 1))
  congr 1
  funext a
  apply Fin.ext
  match a with
  | ⟨0, _⟩ => show (cfg0.win 2).index t (0 : Fin 2) * 1024 + 1 * r.val = n.val; rw [e0, hn]; omega
  | ⟨1, _⟩ => show (cfg0.win 2).index t (1 : Fin 2) * 1 + 1 * 0 = 0; rw [e1]

/-- Entry `s` of the block of the second array's norms at `t` is entry `1024 · (t % 16) + s` of the row. -/
theorem blockRead0_3 (c : Dev nD) (t : Fin cfg0.N) (s : Fin 1024) (m : Fin 16384)
    (hm : m.val = 1024 * (t.val % 16) + s.val) : blkQ0 V c t (ix2 (0 : Fin 1) s) = arrQ0 V c (ix2 (0 : Fin 1) m) := by
  obtain ⟨-, -, -, -, -, -, e0, e1, -⟩ := blockIdx0 t
  unfold blkQ0 iblk0
  rw [View.read_apply]
  show V c (Pipeline.arrRef spec0 3) (((cfg0.win 3).blk t).view.emb (ix2 (0 : Fin 1) s)) = V c (Pipeline.arrRef spec0 3) (ix2 (0 : Fin 1) m)
  congr 1
  funext a
  apply Fin.ext
  match a with
  | ⟨0, _⟩ => show (cfg0.win 3).index t (0 : Fin 2) * 1 + 1 * 0 = 0; rw [e0]
  | ⟨1, _⟩ => show (cfg0.win 3).index t (1 : Fin 2) * 1024 + 1 * s.val = m.val; rw [e1, hm]; omega

/-! ## A tile's distances are the arrays' -/

/-- The tile at point `t` holds, at `(r, s)`, the clamped squared distance between row `1024 · (t / 16) + r` of the first
    array and row `1024 · (t % 16) + s` of the second. -/
theorem tileDist0 (c : Dev nD) (t : Fin cfg0.N) (r s : Fin 1024) (n m : Fin 16384)
    (hn : n.val = 1024 * (t.val / 16) + r.val) (hm : m.val = 1024 * (t.val % 16) + s.val) :
    tileDist (blkX0 V c t) (blkY0 V c t) (blkP0 V c t) (blkQ0 V c t) r s
      = Cert.Spec.arrDist (arrX0 V c) (arrY0 V c) (arrP0 V c) (arrQ0 V c) n m := by
  unfold tileDist Cert.Spec.arrDist
  rw [blockRead0_2 V c t r n hn, blockRead0_3 V c t s m hm]
  congr 3
  refine Finset.sum_congr rfl fun k _ => ?_
  rw [blockRead0_0 V c t r k n hn, blockRead0_1 V c t s k m hm]

/-! ## The scratch, point by point -/

/-- A number is below a tile's row minimum iff it is below the word of +∞ and below every distance of the row. -/
theorem le_tileMin0 (x0 x1 : Vec Ideal S1024x3 .f32) (x2 : Vec Ideal S1024x1 .f32) (x3 : Vec Ideal S1x1024 .f32)
    (r : Fin 1024) (e : EReal) :
    e ≤ tileMin x0 x1 x2 x3 r ↔ e ≤ Cert.Spec.top ∧ ∀ s : Fin 1024, e ≤ tileDist x0 x1 x2 x3 r s := by
  unfold tileMin
  rw [Finset.le_fold_min]
  exact and_congr_right fun _ => forall_congr' fun s => ⟨fun h => h (Finset.mem_univ s), fun h _ => h⟩

/-- The scratch after point `n`, at row `r`, by its lower bounds: a number is below it iff it is below the word of +∞ and below
    the distance from row `1024 · (n / 16) + r` of the first array to each of the rows `0 … 1024 · (n % 16 + 1) - 1` of the second.
    At the first point of a row of the grid the scratch takes the tile's row minima; at a later one the minimum of those and
    what it held, and a minimum's lower bounds are the common lower bounds. -/
theorem accMin0 (c : Dev nD) (n : ℕ) : ∀ (h : n < cfg0.N) (r : Fin 1024) (q : Fin 16384)
    (hq : q.val = 1024 * (n / 16) + r.val) (e : EReal),
    e ≤ acc0 V c n h (ix2 r (0 : Fin 1)) ↔
      e ≤ Cert.Spec.top ∧ ∀ m : Fin 16384, m.val < 1024 * (n % 16 + 1) →
        e ≤ Cert.Spec.arrDist (arrX0 V c) (arrY0 V c) (arrP0 V c) (arrQ0 V c) q m := by
  induction n using Nat.strong_induction_on with
  | _ n ih =>
    intro h r q hq e
    have hN : cfg0.N = 256 := N_0
    have h256 : n < 256 := lt_of_lt_of_eq h hN
    -- the tile's row, read on the arrays
    have hT : e ≤ tileMin (blkX0 V c ⟨n, h⟩) (blkY0 V c ⟨n, h⟩) (blkP0 V c ⟨n, h⟩) (blkQ0 V c ⟨n, h⟩) r ↔
        e ≤ Cert.Spec.top ∧ ∀ m : Fin 16384, 1024 * (n % 16) ≤ m.val → m.val < 1024 * (n % 16 + 1) →
          e ≤ Cert.Spec.arrDist (arrX0 V c) (arrY0 V c) (arrP0 V c) (arrQ0 V c) q m := by
      rw [le_tileMin0]
      refine and_congr_right fun _ => ⟨fun hB m hlo hhi => ?_, fun hD s => ?_⟩
      · have := hB ⟨m.val - 1024 * (n % 16), by omega⟩
        rwa [tileDist0 V c ⟨n, h⟩ r ⟨m.val - 1024 * (n % 16), by omega⟩ q m hq (by show m.val = 1024 * (n % 16) + (m.val - 1024 * (n % 16)); omega)] at this
      · rw [tileDist0 V c ⟨n, h⟩ r s q ⟨1024 * (n % 16) + s.val, by omega⟩ hq rfl]
        exact hD _ (by show 1024 * (n % 16) ≤ 1024 * (n % 16) + s.val; omega) (by show 1024 * (n % 16) + s.val < 1024 * (n % 16 + 1); omega)
    by_cases h0 : n % 16 = 0
    · -- the first point of a row of the grid
      have e1 : acc0 V c n h (ix2 r (0 : Fin 1)) = tileMin (blkX0 V c ⟨n, h⟩) (blkY0 V c ⟨n, h⟩) (blkP0 V c ⟨n, h⟩) (blkQ0 V c ⟨n, h⟩) r :=
        (congrFun (acc0_first V c ⟨n, h⟩ h0) (ix2 r (0 : Fin 1))).trans
          (pay2_apply (blkX0 V c ⟨n, h⟩) (blkY0 V c ⟨n, h⟩) (blkP0 V c ⟨n, h⟩) (blkQ0 V c ⟨n, h⟩) r)
      rw [e1, hT]
      exact and_congr_right fun _ => forall_congr' fun m => ⟨fun hD hhi => hD (by omega) hhi, fun hD _ hhi => hD hhi⟩
    · -- a later point: the minimum with what the point before left
      have e1 : acc0 V c n h (ix2 r (0 : Fin 1))
          = min (acc0 V c (n - 1) (Nat.lt_of_le_of_lt (Nat.sub_le _ _) h) (ix2 r (0 : Fin 1)))
              (tileMin (blkX0 V c ⟨n, h⟩) (blkY0 V c ⟨n, h⟩) (blkP0 V c ⟨n, h⟩) (blkQ0 V c ⟨n, h⟩) r) :=
        (congrFun (acc0_later V c ⟨n, h⟩ h0) (ix2 r (0 : Fin 1))).trans
          (pay3_apply (blkX0 V c ⟨n, h⟩) (blkY0 V c ⟨n, h⟩) (blkP0 V c ⟨n, h⟩) (blkQ0 V c ⟨n, h⟩)
            (acc0 V c (n - 1) (Nat.lt_of_le_of_lt (Nat.sub_le _ _) h)) r)
      rw [e1, le_min_iff, hT,
        ih (n - 1) (by omega) (Nat.lt_of_le_of_lt (Nat.sub_le _ _) h) r q (by rw [hq]; omega) e]
      have hs : (n - 1) % 16 + 1 = n % 16 := by omega
      rw [hs]
      constructor
      · rintro ⟨⟨ht, hA⟩, -, hB⟩
        refine ⟨ht, fun m hhi => ?_⟩
        by_cases hlt : m.val < 1024 * (n % 16)
        · exact hA m hlt
        · exact hB m (by omega) hhi
      · rintro ⟨ht, hD⟩
        exact ⟨⟨ht, fun m hlt => hD m (by omega)⟩, ht, fun m _ hhi => hD m hhi⟩

/-- At the last point of a row of the grid the scratch holds, at row `r`, the minimum over all rows of the second array:
    the sixteen blocks are all of them. -/
theorem accLast0 (c : Dev nD) (t : Fin cfg0.N) (h15 : t.val % 16 = 15) (r : Fin 1024) (q : Fin 16384)
    (hq : q.val = 1024 * (t.val / 16) + r.val) :
    acc0 V c t.val t.isLt (ix2 r (0 : Fin 1)) = Cert.Spec.arrMin (arrX0 V c) (arrY0 V c) (arrP0 V c) (arrQ0 V c) q := by
  refine eq_of_forall_le_iff fun e => ?_
  rw [accMin0 V c t.val t.isLt r q hq e, h15]
  unfold Cert.Spec.arrMin
  rw [Finset.le_fold_min]
  exact and_congr_right fun _ => forall_congr' fun m =>
    ⟨fun hD _ => hD (by have := m.isLt; omega), fun hD _ => hD (Finset.mem_univ m)⟩

/-! ## What is written back, and where -/

/-- What the output array ends holding: row `n` at the minimum over the second array's rows. -/
abbrev rowMin0 (c : Dev nD) : Vec Ideal S16384x1 .f32 := fun i =>
  Cert.Spec.arrMin (arrX0 V c) (arrY0 V c) (arrP0 V c) (arrQ0 V c) ⟨(i 0).val, (i 0).isLt⟩

/-- What a point that writes back writes is its block of the row minima: the point is the last of its row of the grid, its
    buffer holds the scratch's contents there, and row `r` of the block is row `1024 · (t / 16) + r` of the array. -/
theorem flushed0 (c : Dev nD) (t : Fin cfg0.N) (hf : (cfg0.win 4).flush t = true) :
    (dat0 (F := Ideal) V c).flushed 4 t = ((cfg0.win 4).blk t).view.read (Elt Ideal) (rowMin0 V c) := by
  have h15 : t.val % 16 = 15 := (flush0_4 t).mp hf
  obtain ⟨-, -, -, -, -, -, -, -, e0, -⟩ := blockIdx0 t
  show (cfg0.win 4).cut (grid0.coords t) ((dat0 V c).after 4 t) = _
  rw [after0_4]
  funext y
  rw [View.read_apply]
  have hy0 : (y 0).val < 1024 := (y 0).isLt
  have hy1 : (y 1).val < 1 := (y 1).isLt
  refine Eq.trans ?_ (cast_eq _ _).symm
  show acc0 V c t.val t.isLt ((cfg0.win 4).xinj (grid0.coords t) y) = _
  have hx : (cfg0.win 4).xinj (grid0.coords t) y = ix2 (⟨(y 0).val, hy0⟩ : Fin 1024) (0 : Fin 1) := by
    funext a
    apply Fin.ext
    match a with
    | ⟨0, _⟩ => rfl
    | ⟨1, _⟩ => show (y 1).val = 0; omega
  rw [hx]
  refine accLast0 V c t h15 ⟨(y 0).val, hy0⟩ ⟨((((cfg0.win 4).blk t).view.emb y) 0).val, ((((cfg0.win 4).blk t).view.emb y) 0).isLt⟩ ?_
  show (cfg0.win 4).index t (0 : Fin 2) * 1024 + 1 * (y 0).val = 1024 * (t.val / 16) + (y 0).val
  rw [e0]; omega

/-- Every row of the output array is in the block some point writes back: row `n` in that of the last point of row
    `n / 1024` of the grid. -/
theorem cover0 (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  have hN : cfg0.N = 256 := N_0
  have ht : 16 * ((i 0).val / 1024) + 15 < cfg0.N := by rw [hN]; omega
  refine ⟨⟨16 * ((i 0).val / 1024) + 15, ht⟩, (flush0_4 _).mpr (by show (16 * ((i 0).val / 1024) + 15) % 16 = 15; omega), ?_⟩
  obtain ⟨-, -, -, -, -, -, -, -, e0, e1⟩ := blockIdx0 ⟨16 * ((i 0).val / 1024) + 15, ht⟩
  have d0 : (16 * ((i 0).val / 1024) + 15) / 16 = (i 0).val / 1024 := by omega
  show i ∈ ((View.whole (Pipeline.arrRef spec0 4)).slice ((cfg0.win 4).rect ⟨16 * ((i 0).val / 1024) + 15, ht⟩)).set
  rw [View.set_slice_whole, Rect.mem_set_unit]
  intro a
  match a with
  | ⟨0, _⟩ =>
    show (cfg0.win 4).index ⟨16 * ((i 0).val / 1024) + 15, ht⟩ (0 : Fin 2) * 1024 ≤ (i 0).val
      ∧ (i 0).val < (cfg0.win 4).index ⟨16 * ((i 0).val / 1024) + 15, ht⟩ (0 : Fin 2) * 1024 + 1024
    rw [e0]
    show (16 * ((i 0).val / 1024) + 15) / 16 * 1024 ≤ (i 0).val ∧ (i 0).val < (16 * ((i 0).val / 1024) + 15) / 16 * 1024 + 1024
    rw [d0]; omega
  | ⟨1, _⟩ =>
    show (cfg0.win 4).index ⟨16 * ((i 0).val / 1024) + 15, ht⟩ (1 : Fin 2) * 1 ≤ (i 1).val
      ∧ (i 1).val < (cfg0.win 4).index ⟨16 * ((i 0).val / 1024) + 15, ht⟩ (1 : Fin 2) * 1 + 1
    rw [e1]; omega

/-- The output array after the region: row `n` at the minimum over the second array's rows. -/
theorem out0_value (c : Dev nD) (n : Fin 16384) :
    ((dat0 (F := Ideal) V c).arrAt 4 cfg0.N : Vec Ideal S16384x1 .f32) (ix2 n (0 : Fin 1))
      = Cert.Spec.arrMin (V c (Pipeline.arrRef spec0 0)) (V c (Pipeline.arrRef spec0 1))
          (V c (Pipeline.arrRef spec0 2)) (V c (Pipeline.arrRef spec0 3)) n :=
  congrFun ((dat0 (F := Ideal) V c).arrAt_eq_of_cover 4 (rowMin0 V c) (fun t hf => flushed0 V c t hf) cover0) (ix2 n (0 : Fin 1))

end Cert.KernelIdeal.Hand

end
-- ==== Proof.KernelIdeal.Value1.lean ====
/-
  What region 0 leaves in its output array, on the extended reals: row n holds the minimum, over all 16384 rows of the
  second array, of the clamped squared distance to row n of the first. The scratch after point 16·i + j holds, for each
  row of block i, the minimum over the rows of blocks 0 … j; the output block i is written at j = 15, and the sixteen
  output blocks cover the array.
-/
import proofs.«141939_j80676665688371_1_alg».proof.Proof.Gen.KernelIdeal.Launch
import proofs.«141939_j80676665688371_1_alg».proof.Proof.Gen.KernelIdeal.Skeleton
import proofs.«141939_j80676665688371_1_alg».proof.Proof.Gen.KernelIdeal.Points
import proofs.«141939_j80676665688371_1_alg».proof.Proof.KernelIdeal.Region1
import proofs.«141939_j80676665688371_1_alg».proof.Proof.KernelIdeal.Payload
import proofs.«141939_j80676665688371_1_alg».proof.Proof.Spec
import Idealize.ShloMosaic.Lib.ValueIdx
import Idealize.ShloMosaic.PureOps.Ideal.Laws
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Payload

variable (V : (c : Dev nD) → (b : Ref sig .tc) → Buf (Elt Ideal) ((c : Thread nD τ).loc b))

/-! ## The blocks and the arrays, by their literal types -/

/-- The block of the first array at point `t`. -/
abbrev blkX1 (c : Dev nD) (t : Fin cfg1.N) : Vec Ideal S1024x3 .f32 := iblk1 V c 0 t
/-- The block of the second array at point `t`. -/
abbrev blkY1 (c : Dev nD) (t : Fin cfg1.N) : Vec Ideal S1024x3 .f32 := iblk1 V c 1 t
/-- The block of the first array's squared norms at point `t`. -/
abbrev blkP1 (c : Dev nD) (t : Fin cfg1.N) : Vec Ideal S1024x1 .f32 := iblk1 V c 2 t
/-- The block of the second array's squared norms at point `t`. -/
abbrev blkQ1 (c : Dev nD) (t : Fin cfg1.N) : Vec Ideal S1x1024 .f32 := iblk1 V c 3 t

/-- The first array, as the region finds it. -/
abbrev arrX1 (c : Dev nD) : Vec Ideal S16384x3 .f32 := V c (Pipeline.arrRef spec1 0)
/-- The second array. -/
abbrev arrY1 (c : Dev nD) : Vec Ideal S16384x3 .f32 := V c (Pipeline.arrRef spec1 1)
/-- The column of the first array's squared norms. -/
abbrev arrP1 (c : Dev nD) : Vec Ideal S16384x1 .f32 := V c (Pipeline.arrRef spec1 2)
/-- The row of the second array's squared norms. -/
abbrev arrQ1 (c : Dev nD) : Vec Ideal S1x16384 .f32 := V c (Pipeline.arrRef spec1 3)

/-! ## Where a block sits in its array -/

/-- The block indices over the grid: point `t` is at row `t / 16` and column `t % 16` of the grid; the first array, its norms
    and the output move with the row, the second array and its norms with the column. -/
theorem blockIdx1 : ∀ t : Fin cfg1.N,
    (cfg1.win 0).index t (0 : Fin 2) = t.val / 16 ∧ (cfg1.win 0).index t (1 : Fin 2) = 0
    ∧ (cfg1.win 1).index t (0 : Fin 2) = t.val % 16 ∧ (cfg1.win 1).index t (1 : Fin 2) = 0
    ∧ (cfg1.win 2).index t (0 : Fin 2) = t.val / 16 ∧ (cfg1.win 2).index t (1 : Fin 2) = 0
    ∧ (cfg1.win 3).index t (0 : Fin 2) = 0 ∧ (cfg1.win 3).index t (1 : Fin 2) = t.val % 16
    ∧ (cfg1.win 4).index t (0 : Fin 2) = t.val / 16 ∧ (cfg1.win 4).index t (1 : Fin 2) = 0 :=
  (by decide +kernel : ∀ t : Fin grid1.N, _)

/-- Row `r`, coordinate `k` of the first array's block at `t` is row `1024 · (t / 16) + r` of the array. -/
theorem blockRead1_0 (c : Dev nD) (t : Fin cfg1.N) (r : Fin 1024) (k : Fin 3) (n : Fin 16384)
    (hn : n.val = 1024 * (t.val / 16) + r.val) : blkX1 V c t (ix2 r k) = arrX1 V c (ix2 n k) := by
  obtain ⟨e0, e1, -⟩ := blockIdx1 t
  unfold blkX1 iblk1
  rw [View.read_apply]
  show V c (Pipeline.arrRef spec1 0) (((cfg1.win 0).blk t).view.emb (ix2 r k)) = V c (Pipeline.arrRef spec1 0) (ix2 n k)
  congr 1
  funext a
  apply Fin.ext
  match a with
  | ⟨0, _⟩ => show (cfg1.win 0).index t (0 : Fin 2) * 1024 + 1 * r.val = n.val; rw [e0, hn]; omega
  | ⟨1, _⟩ => show (cfg1.win 0).index t (1 : Fin 2) * 3 + 1 * k.val = k.val; rw [e1]; omega

/-- Row `r`, coordinate `k` of the second array's block at `t` is row `1024 · (t % 16) + r` of the array. -/
theorem blockRead1_1 (c : Dev nD) (t : Fin cfg1.N) (r : Fin 1024) (k : Fin 3) (m : Fin 16384)
    (hm : m.val = 1024 * (t.val % 16) + r.val) : blkY1 V c t (ix2 r k) = arrY1 V c (ix2 m k) := by
  obtain ⟨-, -, e0, e1, -⟩ := blockIdx1 t
  unfold blkY1 iblk1
  rw [View.read_apply]
  show V c (Pipeline.arrRef spec1 1) (((cfg1.win 1).blk t).view.emb (ix2 r k)) = V c (Pipeline.arrRef spec1 1) (ix2 m k)
  congr 1
  funext a
  apply Fin.ext
  match a with
  | ⟨0, _⟩ => show (cfg1.win 1).index t (0 : Fin 2) * 1024 + 1 * r.val = m.val; rw [e0, hm]; omega
  | ⟨1, _⟩ => show (cfg1.win 1).index t (1 : Fin 2) * 3 + 1 * k.val = k.val; rw [e1]; omega

/-- Row `r` of the block of the first array's norms at `t` is row `1024 · (t / 16) + r` of the column. -/
theorem blockRead1_2 (c : Dev nD) (t : Fin cfg1.N) (r : Fin 1024) (n : Fin 16384)
    (hn : n.val = 1024 * (t.val / 16) + r.val) : blkP1 V c t (ix2 r (0 : Fin 1)) = arrP1 V c (ix2 n (0 : Fin 1)) := by
  obtain ⟨-, -, -, -, e0, e1, -⟩ := blockIdx1 t
  unfold blkP1 iblk1
  rw [View.read_apply]
  show V c (Pipeline.arrRef spec1 2) (((cfg1.win 2).blk t).view.emb (ix2 r (0 : Fin 1))) = V c (Pipeline.arrRef spec1 2) (ix2 n (0 : Fin 1))
  congr 1
  funext a
  apply Fin.ext
  match a with
  | ⟨0, _⟩ => show (cfg1.win 2).index t (0 : Fin 2) * 1024 + 1 * r.val = n.val; rw [e0, hn]; omega
  | ⟨1, _⟩ => show (cfg1.win 2).index t (1 : Fin 2) * 1 + 1 * 0 = 0; rw [e1]

/-- Entry `s` of the block of the second array's norms at `t` is entry `1024 · (t % 16) + s` of the row. -/
theorem blockRead1_3 (c : Dev nD) (t : Fin cfg1.N) (s : Fin 1024) (m : Fin 16384)
    (hm : m.val = 1024 * (t.val % 16) + s.val) : blkQ1 V c t (ix2 (0 : Fin 1) s) = arrQ1 V c (ix2 (0 : Fin 1) m) := by
  obtain ⟨-, -, -, -, -, -, e0, e1, -⟩ := blockIdx1 t
  unfold blkQ1 iblk1
  rw [View.read_apply]
  show V c (Pipeline.arrRef spec1 3) (((cfg1.win 3).blk t).view.emb (ix2 (0 : Fin 1) s)) = V c (Pipeline.arrRef spec1 3) (ix2 (0 : Fin 1) m)
  congr 1
  funext a
  apply Fin.ext
  match a with
  | ⟨0, _⟩ => show (cfg1.win 3).index t (0 : Fin 2) * 1 + 1 * 0 = 0; rw [e0]
  | ⟨1, _⟩ => show (cfg1.win 3).index t (1 : Fin 2) * 1024 + 1 * s.val = m.val; rw [e1, hm]; omega

/-! ## A tile's distances are the arrays' -/

/-- The tile at point `t` holds, at `(r, s)`, the clamped squared distance between row `1024 · (t / 16) + r` of the first
    array and row `1024 · (t % 16) + s` of the second. -/
theorem tileDist1 (c : Dev nD) (t : Fin cfg1.N) (r s : Fin 1024) (n m : Fin 16384)
    (hn : n.val = 1024 * (t.val / 16) + r.val) (hm : m.val = 1024 * (t.val % 16) + s.val) :
    tileDist (blkX1 V c t) (blkY1 V c t) (blkP1 V c t) (blkQ1 V c t) r s
      = Cert.Spec.arrDist (arrX1 V c) (arrY1 V c) (arrP1 V c) (arrQ1 V c) n m := by
  unfold tileDist Cert.Spec.arrDist
  rw [blockRead1_2 V c t r n hn, blockRead1_3 V c t s m hm]
  congr 3
  refine Finset.sum_congr rfl fun k _ => ?_
  rw [blockRead1_0 V c t r k n hn, blockRead1_1 V c t s k m hm]

/-! ## The scratch, point by point -/

/-- A number is below a tile's row minimum iff it is below the word of +∞ and below every distance of the row. -/
theorem le_tileMin1 (x0 x1 : Vec Ideal S1024x3 .f32) (x2 : Vec Ideal S1024x1 .f32) (x3 : Vec Ideal S1x1024 .f32)
    (r : Fin 1024) (e : EReal) :
    e ≤ tileMin x0 x1 x2 x3 r ↔ e ≤ Cert.Spec.top ∧ ∀ s : Fin 1024, e ≤ tileDist x0 x1 x2 x3 r s := by
  unfold tileMin
  rw [Finset.le_fold_min]
  exact and_congr_right fun _ => forall_congr' fun s => ⟨fun h => h (Finset.mem_univ s), fun h _ => h⟩

/-- The scratch after point `n`, at row `r`, by its lower bounds: a number is below it iff it is below the word of +∞ and below
    the distance from row `1024 · (n / 16) + r` of the first array to each of the rows `0 … 1024 · (n % 16 + 1) - 1` of the second.
    At the first point of a row of the grid the scratch takes the tile's row minima; at a later one the minimum of those and
    what it held, and a minimum's lower bounds are the common lower bounds. -/
theorem accMin1 (c : Dev nD) (n : ℕ) : ∀ (h : n < cfg1.N) (r : Fin 1024) (q : Fin 16384)
    (hq : q.val = 1024 * (n / 16) + r.val) (e : EReal),
    e ≤ acc1 V c n h (ix2 r (0 : Fin 1)) ↔
      e ≤ Cert.Spec.top ∧ ∀ m : Fin 16384, m.val < 1024 * (n % 16 + 1) →
        e ≤ Cert.Spec.arrDist (arrX1 V c) (arrY1 V c) (arrP1 V c) (arrQ1 V c) q m := by
  induction n using Nat.strong_induction_on with
  | _ n ih =>
    intro h r q hq e
    have hN : cfg1.N = 256 := N_1
    have h256 : n < 256 := lt_of_lt_of_eq h hN
    -- the tile's row, read on the arrays
    have hT : e ≤ tileMin (blkX1 V c ⟨n, h⟩) (blkY1 V c ⟨n, h⟩) (blkP1 V c ⟨n, h⟩) (blkQ1 V c ⟨n, h⟩) r ↔
        e ≤ Cert.Spec.top ∧ ∀ m : Fin 16384, 1024 * (n % 16) ≤ m.val → m.val < 1024 * (n % 16 + 1) →
          e ≤ Cert.Spec.arrDist (arrX1 V c) (arrY1 V c) (arrP1 V c) (arrQ1 V c) q m := by
      rw [le_tileMin1]
      refine and_congr_right fun _ => ⟨fun hB m hlo hhi => ?_, fun hD s => ?_⟩
      · have := hB ⟨m.val - 1024 * (n % 16), by omega⟩
        rwa [tileDist1 V c ⟨n, h⟩ r ⟨m.val - 1024 * (n % 16), by omega⟩ q m hq (by show m.val = 1024 * (n % 16) + (m.val - 1024 * (n % 16)); omega)] at this
      · rw [tileDist1 V c ⟨n, h⟩ r s q ⟨1024 * (n % 16) + s.val, by omega⟩ hq rfl]
        exact hD _ (by show 1024 * (n % 16) ≤ 1024 * (n % 16) + s.val; omega) (by show 1024 * (n % 16) + s.val < 1024 * (n % 16 + 1); omega)
    by_cases h0 : n % 16 = 0
    · -- the first point of a row of the grid
      have e1 : acc1 V c n h (ix2 r (0 : Fin 1)) = tileMin (blkX1 V c ⟨n, h⟩) (blkY1 V c ⟨n, h⟩) (blkP1 V c ⟨n, h⟩) (blkQ1 V c ⟨n, h⟩) r :=
        (congrFun (acc1_first V c ⟨n, h⟩ h0) (ix2 r (0 : Fin 1))).trans
          (pay2_apply1 (blkX1 V c ⟨n, h⟩) (blkY1 V c ⟨n, h⟩) (blkP1 V c ⟨n, h⟩) (blkQ1 V c ⟨n, h⟩) r)
      rw [e1, hT]
      exact and_congr_right fun _ => forall_congr' fun m => ⟨fun hD hhi => hD (by omega) hhi, fun hD _ hhi => hD hhi⟩
    · -- a later point: the minimum with what the point before left
      have e1 : acc1 V c n h (ix2 r (0 : Fin 1))
          = min (acc1 V c (n - 1) (Nat.lt_of_le_of_lt (Nat.sub_le _ _) h) (ix2 r (0 : Fin 1)))
              (tileMin (blkX1 V c ⟨n, h⟩) (blkY1 V c ⟨n, h⟩) (blkP1 V c ⟨n, h⟩) (blkQ1 V c ⟨n, h⟩) r) :=
        (congrFun (acc1_later V c ⟨n, h⟩ h0) (ix2 r (0 : Fin 1))).trans
          (pay3_apply1 (blkX1 V c ⟨n, h⟩) (blkY1 V c ⟨n, h⟩) (blkP1 V c ⟨n, h⟩) (blkQ1 V c ⟨n, h⟩)
            (acc1 V c (n - 1) (Nat.lt_of_le_of_lt (Nat.sub_le _ _) h)) r)
      rw [e1, le_min_iff, hT,
        ih (n - 1) (by omega) (Nat.lt_of_le_of_lt (Nat.sub_le _ _) h) r q (by rw [hq]; omega) e]
      have hs : (n - 1) % 16 + 1 = n % 16 := by omega
      rw [hs]
      constructor
      · rintro ⟨⟨ht, hA⟩, -, hB⟩
        refine ⟨ht, fun m hhi => ?_⟩
        by_cases hlt : m.val < 1024 * (n % 16)
        · exact hA m hlt
        · exact hB m (by omega) hhi
      · rintro ⟨ht, hD⟩
        exact ⟨⟨ht, fun m hlt => hD m (by omega)⟩, ht, fun m _ hhi => hD m hhi⟩

/-- At the last point of a row of the grid the scratch holds, at row `r`, the minimum over all rows of the second array:
    the sixteen blocks are all of them. -/
theorem accLast1 (c : Dev nD) (t : Fin cfg1.N) (h15 : t.val % 16 = 15) (r : Fin 1024) (q : Fin 16384)
    (hq : q.val = 1024 * (t.val / 16) + r.val) :
    acc1 V c t.val t.isLt (ix2 r (0 : Fin 1)) = Cert.Spec.arrMin (arrX1 V c) (arrY1 V c) (arrP1 V c) (arrQ1 V c) q := by
  refine eq_of_forall_le_iff fun e => ?_
  rw [accMin1 V c t.val t.isLt r q hq e, h15]
  unfold Cert.Spec.arrMin
  rw [Finset.le_fold_min]
  exact and_congr_right fun _ => forall_congr' fun m =>
    ⟨fun hD _ => hD (by have := m.isLt; omega), fun hD _ => hD (Finset.mem_univ m)⟩

/-! ## What is written back, and where -/

/-- What the output array ends holding: row `n` at the minimum over the second array's rows. -/
abbrev rowMin1 (c : Dev nD) : Vec Ideal S16384x1 .f32 := fun i =>
  Cert.Spec.arrMin (arrX1 V c) (arrY1 V c) (arrP1 V c) (arrQ1 V c) ⟨(i 0).val, (i 0).isLt⟩

/-- What a point that writes back writes is its block of the row minima: the point is the last of its row of the grid, its
    buffer holds the scratch's contents there, and row `r` of the block is row `1024 · (t / 16) + r` of the array. -/
theorem flushed1 (c : Dev nD) (t : Fin cfg1.N) (hf : (cfg1.win 4).flush t = true) :
    (dat1 (F := Ideal) V c).flushed 4 t = ((cfg1.win 4).blk t).view.read (Elt Ideal) (rowMin1 V c) := by
  have h15 : t.val % 16 = 15 := (flush1_4 t).mp hf
  obtain ⟨-, -, -, -, -, -, -, -, e0, -⟩ := blockIdx1 t
  show (cfg1.win 4).cut (grid1.coords t) ((dat1 V c).after 4 t) = _
  rw [after1_4]
  funext y
  rw [View.read_apply]
  have hy0 : (y 0).val < 1024 := (y 0).isLt
  have hy1 : (y 1).val < 1 := (y 1).isLt
  refine Eq.trans ?_ (cast_eq _ _).symm
  show acc1 V c t.val t.isLt ((cfg1.win 4).xinj (grid1.coords t) y) = _
  have hx : (cfg1.win 4).xinj (grid1.coords t) y = ix2 (⟨(y 0).val, hy0⟩ : Fin 1024) (0 : Fin 1) := by
    funext a
    apply Fin.ext
    match a with
    | ⟨0, _⟩ => rfl
    | ⟨1, _⟩ => show (y 1).val = 0; omega
  rw [hx]
  refine accLast1 V c t h15 ⟨(y 0).val, hy0⟩ ⟨((((cfg1.win 4).blk t).view.emb y) 0).val, ((((cfg1.win 4).blk t).view.emb y) 0).isLt⟩ ?_
  show (cfg1.win 4).index t (0 : Fin 2) * 1024 + 1 * (y 0).val = 1024 * (t.val / 16) + (y 0).val
  rw [e0]; omega

/-- Every row of the output array is in the block some point writes back: row `n` in that of the last point of row
    `n / 1024` of the grid. -/
theorem cover1 (i : S16384x1.Idx) :
    ∃ t : Fin cfg1.N, (cfg1.win 4).flush t = true ∧ i ∈ ((cfg1.win 4).blk t).view.set := by
  have hi0 : (i 0).val < 16384 := (i 0).isLt
  have hi1 : (i 1).val < 1 := (i 1).isLt
  have hN : cfg1.N = 256 := N_1
  have ht : 16 * ((i 0).val / 1024) + 15 < cfg1.N := by rw [hN]; omega
  refine ⟨⟨16 * ((i 0).val / 1024) + 15, ht⟩, (flush1_4 _).mpr (by show (16 * ((i 0).val / 1024) + 15) % 16 = 15; omega), ?_⟩
  obtain ⟨-, -, -, -, -, -, -, -, e0, e1⟩ := blockIdx1 ⟨16 * ((i 0).val / 1024) + 15, ht⟩
  have d0 : (16 * ((i 0).val / 1024) + 15) / 16 = (i 0).val / 1024 := by omega
  show i ∈ ((View.whole (Pipeline.arrRef spec1 4)).slice ((cfg1.win 4).rect ⟨16 * ((i 0).val / 1024) + 15, ht⟩)).set
  rw [View.set_slice_whole, Rect.mem_set_unit]
  intro a
  match a with
  | ⟨0, _⟩ =>
    show (cfg1.win 4).index ⟨16 * ((i 0).val / 1024) + 15, ht⟩ (0 : Fin 2) * 1024 ≤ (i 0).val
      ∧ (i 0).val < (cfg1.win 4).index ⟨16 * ((i 0).val / 1024) + 15, ht⟩ (0 : Fin 2) * 1024 + 1024
    rw [e0]
    show (16 * ((i 0).val / 1024) + 15) / 16 * 1024 ≤ (i 0).val ∧ (i 0).val < (16 * ((i 0).val / 1024) + 15) / 16 * 1024 + 1024
    rw [d0]; omega
  | ⟨1, _⟩ =>
    show (cfg1.win 4).index ⟨16 * ((i 0).val / 1024) + 15, ht⟩ (1 : Fin 2) * 1 ≤ (i 1).val
      ∧ (i 1).val < (cfg1.win 4).index ⟨16 * ((i 0).val / 1024) + 15, ht⟩ (1 : Fin 2) * 1 + 1
    rw [e1]; omega

/-- The output array after the region: row `n` at the minimum over the second array's rows. -/
theorem out1_value (c : Dev nD) (n : Fin 16384) :
    ((dat1 (F := Ideal) V c).arrAt 4 cfg1.N : Vec Ideal S16384x1 .f32) (ix2 n (0 : Fin 1))
      = Cert.Spec.arrMin (V c (Pipeline.arrRef spec1 0)) (V c (Pipeline.arrRef spec1 1))
          (V c (Pipeline.arrRef spec1 2)) (V c (Pipeline.arrRef spec1 3)) n :=
  congrFun ((dat1 (F := Ideal) V c).arrAt_eq_of_cover 4 (rowMin1 V c) (fun t hf => flushed1 V c t hf) cover1) (ix2 n (0 : Fin 1))

end Cert.KernelIdeal.Hand

end
-- ==== Proof.KernelIdeal.Result.lean ====
/-
  The idealized kernel's result. The first region's output column holds, for each point of the first cloud, the distance
  to the nearest point of the second; the second region's, for each point of the second cloud, the distance to the nearest
  point of the first; the last host stretch adds their means: the specification's loss of the two arguments.
-/
import proofs.«141939_j80676665688371_1_alg».proof.Proof.KernelIdeal.HostValue
import proofs.«141939_j80676665688371_1_alg».proof.Proof.KernelIdeal.Value0
import proofs.«141939_j80676665688371_1_alg».proof.Proof.KernelIdeal.Value1

set_option maxRecDepth 16384

noncomputable section

namespace Cert.KernelIdeal.Hand

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ) (c : Dev nD)

/-- The first region's output column: the first cloud's nearest-neighbour distances. -/
theorem out0_nearest (n : Fin 16384) :
    ((dat0 (F := Ideal) (V1 m) c).arrAt 4 cfg0.N : Vec Ideal S16384x1 .f32) (ix2 n (0 : Fin 1))
      = Cert.Spec.nearest (argP m c) (argT m c) n := by
  rw [out0_value (V1 m) c n]
  rw [show (V1 m c (Pipeline.arrRef spec0 0) : Vec Ideal S16384x3 .f32) = pts (argP m c) from W1_v0 m c,
    show (V1 m c (Pipeline.arrRef spec0 1) : Vec Ideal S16384x3 .f32) = pts (argT m c) from W1_v1 m c,
    show (V1 m c (Pipeline.arrRef spec0 2) : Vec Ideal S16384x1 .f32) = normsCol (argP m c) from W1_v6 m c,
    show (V1 m c (Pipeline.arrRef spec0 3) : Vec Ideal S1x16384 .f32) = normsRow (argT m c) from W1_v7 m c]
  exact arrMin_clouds (argP m c) (argT m c) n

/-- The second region's output column: the second cloud's nearest-neighbour distances. -/
theorem out1_nearest (n : Fin 16384) :
    ((dat1 (F := Ideal) (V3 m) c).arrAt 4 cfg1.N : Vec Ideal S16384x1 .f32) (ix2 n (0 : Fin 1))
      = Cert.Spec.nearest (argT m c) (argP m c) n := by
  rw [out1_value (V3 m) c n]
  rw [show (V3 m c (Pipeline.arrRef spec1 0) : Vec Ideal S16384x3 .f32) = pts (argT m c) from W3_v1 m c,
    show (V3 m c (Pipeline.arrRef spec1 1) : Vec Ideal S16384x3 .f32) = pts (argP m c) from W3_v0 m c,
    show (V3 m c (Pipeline.arrRef spec1 2) : Vec Ideal S16384x1 .f32) = normsCol (argT m c) from W3_v9 m c,
    show (V3 m c (Pipeline.arrRef spec1 3) : Vec Ideal S1x16384 .f32) = normsRow (argP m c) from W3_v10 m c]
  exact arrMin_clouds (argT m c) (argP m c) n

/-- The result buffer after the last host stretch: the loss. -/
theorem W5_result : (W5 m c (Proc.devRef .tc main_v16) : Vec Ideal S_ .f32)
    = fun _ => Cert.Spec.loss (argP m c) (argT m c) := by
  rw [W5_v16 m c, tail_value _ _ (Cert.Spec.nearest (argP m c) (argT m c)) (Cert.Spec.nearest (argT m c) (argP m c))
    (fun n => by rw [W4_v8 m c]; exact out0_nearest m c n) (fun n => by rw [W4_v11 m c]; exact out1_nearest m c n)]
  rfl

end Cert.KernelIdeal.Hand

end
-- ==== Proof.RefValue.lean ====
/-
  The reference's result is the specification's loss of its two arguments.

  The reference flattens each cloud [1, 16384, 3] to an array [16384, 3], takes each point's squared norm as the zero
  word plus the sum of its three squared coordinates, and all inner products ⟨x_n, y_m⟩ as one contraction over the
  coordinate axis. Entry (n, m) of its distance matrix is max ((|x_n|² + |y_m|²) − 2·⟨x_n, y_m⟩) 0, the squared norms
  spread along rows and columns. The minimum over m, started from the word of +∞, is the distance from x_n to the nearest
  point of the second cloud; the minimum over n is the distance from y_m to the nearest point of the first, because the
  distance does not depend on which cloud is named first. Each vector of 16384 minima is summed from the zero word and
  divided by the word of 16384, and the two means are added. Each stage is read below at an index given by its
  coordinates; the four float words are never evaluated.
-/
import proofs.«141939_j80676665688371_1_alg».proof.Proof.Gen.ReferenceIdeal.Run
import proofs.«141939_j80676665688371_1_alg».proof.Proof.Gen.ReferenceIdeal.Read
import proofs.«141939_j80676665688371_1_alg».proof.Proof.Spec
import Idealize.ShloMosaic.Lib.ValueIdx
import Idealize.ShloMosaic.Lib.ValueIdxRank1
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A cloud as the reference's stages take it: an array [1, 16384, 3] of extended reals. -/
abbrev Arg : Type := (⟨S1x16384x3, .f32⟩ : BufTy).Contents (Elt Ideal)

/-! ## The flattened clouds

Entry (n, k) of the flattened array sits at row-major position 3·n + k, which in [1, 16384, 3] is (0, n, k). -/

/-- The first cloud flattened to [16384, 3] holds at (n, k) coordinate k of point n. -/
theorem flat0_at (x : Arg) (n : Fin 16384) (k : Fin 3) :
    val_main_v0 (F := Ideal) x (ix2 n k) = Cert.Spec.coord x n k := by
  rw [val_main_v0_apply]
  unfold Cert.Spec.coord
  refine congrArg x (funext fun a => Fin.ext ?_)
  have hn := n.isLt
  have hk := k.isLt
  match a with
  | ⟨0, _⟩ => rfl
  | ⟨1, _⟩ => show (n.val * 3 + k.val) / 3 % 16384 = n.val; omega
  | ⟨2, _⟩ => show (n.val * 3 + k.val) % 3 = k.val; omega

/-- The second cloud flattened likewise. -/
theorem flat1_at (x : Arg) (n : Fin 16384) (k : Fin 3) :
    val_main_v1 (F := Ideal) x (ix2 n k) = Cert.Spec.coord x n k := by
  rw [val_main_v1_apply]
  unfold Cert.Spec.coord
  refine congrArg x (funext fun a => Fin.ext ?_)
  have hn := n.isLt
  have hk := k.isLt
  match a with
  | ⟨0, _⟩ => rfl
  | ⟨1, _⟩ => show (n.val * 3 + k.val) / 3 % 16384 = n.val; omega
  | ⟨2, _⟩ => show (n.val * 3 + k.val) % 3 = k.val; omega

/-! ## Squared norms and inner products -/

/-- Term k of the sum for point n of the first cloud is entry (n, k) of the array of squares. -/
theorem sq0_idx (n : Fin 16384) (k : Fin 3) : idx_main_v3 (ix1 n) k = ix2 n k :=
  funext fun a => Fin.ext (by match a with | ⟨0, _⟩ => rfl | ⟨1, _⟩ => rfl)

/-- The first cloud's vector of squared norms holds at n the zero word plus the sum of the three squared coordinates of point n. -/
theorem sqNorm0_at (x : Arg) (n : Fin 16384) :
    val_main_v3 (F := Ideal) x (ix1 n) = Cert.Spec.sqNorm x n := by
  rw [val_main_v3_apply, val_main_cst_apply]
  unfold Cert.Spec.sqNorm Cert.Spec.zero
  refine congrArg (_ + ·) (Finset.sum_congr rfl fun k _ => ?_)
  rw [sq0_idx, val_main_v2_apply, flat0_at]
  rfl

/-- Term k of the sum for point n of the second cloud is entry (n, k) of the array of squares. -/
theorem sq1_idx (n : Fin 16384) (k : Fin 3) : idx_main_v5 (ix1 n) k = ix2 n k :=
  funext fun a => Fin.ext (by match a with | ⟨0, _⟩ => rfl | ⟨1, _⟩ => rfl)

/-- The second cloud's vector of squared norms, likewise. -/
theorem sqNorm1_at (x : Arg) (n : Fin 16384) :
    val_main_v5 (F := Ideal) x (ix1 n) = Cert.Spec.sqNorm x n := by
  rw [val_main_v5_apply, val_main_cst_0_apply]
  unfold Cert.Spec.sqNorm Cert.Spec.zero
  refine congrArg (_ + ·) (Finset.sum_congr rfl fun k _ => ?_)
  rw [sq1_idx, val_main_v4_apply, flat1_at]
  rfl

/-- Term k of entry (n, m) of the contraction reads the first cloud at (n, k) … -/
theorem inner_lidx (n m : Fin 16384) (k : Fin 3) : lidx_main_v6 (ix2 n m) k = ix2 n k :=
  funext fun a => Fin.ext (by match a with | ⟨0, _⟩ => rfl | ⟨1, _⟩ => rfl)

/-- … and the second at (m, k). -/
theorem inner_ridx (n m : Fin 16384) (k : Fin 3) : ridx_main_v6 (ix2 n m) k = ix2 m k :=
  funext fun a => Fin.ext (by match a with | ⟨0, _⟩ => rfl | ⟨1, _⟩ => rfl)

/-- The contraction over the coordinate axis holds at (n, m) the inner product of point n of the first cloud and point m of the second. -/
theorem inner_at (x0 x1 : Arg) (n m : Fin 16384) :
    val_main_v6 (F := Ideal) x0 x1 (ix2 n m) = Cert.Spec.inner x0 x1 n m := by
  rw [val_main_v6_apply]
  unfold Cert.Spec.inner
  refine Finset.sum_congr rfl fun k _ => ?_
  rw [inner_lidx, inner_ridx, flat0_at, flat1_at]

/-! ## The distance matrix -/

/-- The first cloud's squared norms, made a column and spread along the rows, are read at (n, m) at n … -/
theorem spread_rows_idx (n m : Fin 16384) : idx_main_v7 (idx_main_v9 (ix2 n m)) = ix1 n :=
  funext fun a => Fin.ext (by match a with | ⟨0, _⟩ => rfl)

/-- … and the second cloud's, made a row and spread along the columns, at m. -/
theorem spread_cols_idx (n m : Fin 16384) : idx_main_v8 (idx_main_v10 (ix2 n m)) = ix1 m :=
  funext fun a => Fin.ext (by match a with | ⟨0, _⟩ => rfl)

/-- Entry (n, m) of the distance matrix is the clamped squared distance between point n of the first cloud and point m of the second. -/
theorem dist_at (x0 x1 : Arg) (n m : Fin 16384) :
    val_main_v16 (F := Ideal) x0 x1 (ix2 n m) = Cert.Spec.dist x0 x1 n m := by
  rw [val_main_v16_apply, val_main_v14_apply, val_main_v11_apply, val_main_v9_apply, val_main_v7_apply,
    val_main_v10_apply, val_main_v8_apply, val_main_v13_apply, val_main_v12_apply, val_main_cst_1_apply,
    val_main_v15_apply, val_main_cst_2_apply, spread_rows_idx, spread_cols_idx, sqNorm0_at, sqNorm1_at, inner_at]
  rfl

/-! ## The two minima

A minimum over one axis of the matrix is, at each index of the other axis, the fold of `min` from the word of +∞ over the
dropped axis's coordinate; `min` commutes and associates, so the order of the fold does not matter. -/

/-- The matrix loses its second axis to a vector of 16384 … -/
theorem drop_cols : S16384x16384.Reduces [1] S16384 := by decide
/-- … and likewise its first. -/
theorem drop_rows : S16384x16384.Reduces [0] S16384 := by decide

/-- Over row n, column m is entry (n, m). -/
theorem lift_cols_eq (n m : Fin 16384) : drop_cols.lift (ix1 n) m = ix2 n m :=
  funext fun a => Fin.ext (by match a with | ⟨0, _⟩ => rfl | ⟨1, _⟩ => rfl)

/-- Over column m, row n is entry (n, m). -/
theorem lift_rows_eq (m n : Fin 16384) : drop_rows.lift (ix1 m) n = ix2 n m :=
  funext fun a => Fin.ext (by match a with | ⟨0, _⟩ => rfl | ⟨1, _⟩ => rfl)

/-- The minimum along each row: at n, the distance from point n of the first cloud to the nearest point of the second. -/
theorem nearest_cols_at (x0 x1 : Arg) (n : Fin 16384) :
    val_main_v17 (F := Ideal) x0 x1 (ix1 n) = Cert.Spec.nearest x0 x1 n := by
  unfold val_main_v17
  refine (Host.reduce_eq_fold_single (FloatOps.minimumf (F := Ideal) (φ := .f32)) (val_main_v16 (F := Ideal) x0 x1)
    (val_main_cst_3 (F := Ideal)) reducesTo_S16384x16384_S16384_d1 drop_cols h_S_ (ix1 n)).trans ?_
  rw [val_main_cst_3_apply]
  show Finset.fold min Cert.Spec.top (fun m : Fin 16384 => val_main_v16 (F := Ideal) x0 x1 (drop_cols.lift (ix1 n) m))
    Finset.univ = _
  unfold Cert.Spec.nearest
  refine Finset.fold_congr fun m _ => ?_
  rw [lift_cols_eq, dist_at]

/-- The minimum along each column: at m, the distance from point m of the second cloud to the nearest point of the first
    (the distance between two points does not depend on which cloud is named first). -/
theorem nearest_rows_at (x0 x1 : Arg) (m : Fin 16384) :
    val_main_v18 (F := Ideal) x0 x1 (ix1 m) = Cert.Spec.nearest x1 x0 m := by
  unfold val_main_v18
  refine (Host.reduce_eq_fold_single (FloatOps.minimumf (F := Ideal) (φ := .f32)) (val_main_v16 (F := Ideal) x0 x1)
    (val_main_cst_4 (F := Ideal)) reducesTo_S16384x16384_S16384_d0 drop_rows h_S_ (ix1 m)).trans ?_
  rw [val_main_cst_4_apply]
  show Finset.fold min Cert.Spec.top (fun n : Fin 16384 => val_main_v16 (F := Ideal) x0 x1 (drop_rows.lift (ix1 m) n))
    Finset.univ = _
  unfold Cert.Spec.nearest
  refine Finset.fold_congr fun n _ => ?_
  rw [lift_rows_eq, dist_at, Cert.Spec.dist_comm]

/-! ## The two means and their sum -/

/-- A sum over the indices of a vector of 16384 is the sum over its coordinate. -/
theorem sum_vec (f : S16384.Idx → EReal) : ∑ j : S16384.Idx, f j = ∑ n : Fin 16384, f (ix1 n) :=
  (Equiv.sum_comp (idxEquiv1 (n := 16384)).symm f).symm

/-- The row minima summed from the zero word. -/
theorem sum_nearest_cols (x0 x1 : Arg) (i : S_.Idx) :
    val_main_v19 (F := Ideal) x0 x1 i = Cert.Spec.zero + ∑ n : Fin 16384, Cert.Spec.nearest x0 x1 n := by
  rw [val_main_v19_apply, val_main_cst_5_apply, sum_vec]
  unfold Cert.Spec.zero
  exact congrArg (_ + ·) (Finset.sum_congr rfl fun n _ => nearest_cols_at x0 x1 n)

/-- The column minima summed from the zero word. -/
theorem sum_nearest_rows (x0 x1 : Arg) (i : S_.Idx) :
    val_main_v21 (F := Ideal) x0 x1 i = Cert.Spec.zero + ∑ m : Fin 16384, Cert.Spec.nearest x1 x0 m := by
  rw [val_main_v21_apply, val_main_cst_7_apply, sum_vec]
  unfold Cert.Spec.zero
  exact congrArg (_ + ·) (Finset.sum_congr rfl fun m _ => nearest_rows_at x0 x1 m)

/-- The reference's last stage holds, at its one index, the loss of its two arguments: each sum divided by the word of
    16384, and the two quotients added. -/
theorem result_eq (x0 x1 : Arg) : val_main_v23 (F := Ideal) x0 x1 = fun _ => Cert.Spec.loss x0 x1 := by
  funext i
  rw [val_main_v23_apply, val_main_v20_apply, val_main_v22_apply, val_main_cst_6_apply, val_main_cst_8_apply,
    sum_nearest_cols, sum_nearest_rows]
  rfl

/-- Every weakly fair execution of the reference terminates with its result at the specification's loss of its two arguments, the arguments unchanged. -/
theorem run_loss (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
        r.2.mem ((c.tc : Thread Cert.ReferenceIdeal.nD Cert.ReferenceIdeal.τ).loc Cert.ReferenceIdeal.main_v23)
            = (fun _ => Cert.Spec.loss (m ((c.tc : Thread _ _).loc Cert.ReferenceIdeal.main_arg0)) (m ((c.tc : Thread _ _).loc Cert.ReferenceIdeal.main_arg1)))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1) :=
  (θ_run Cert.ReferenceIdeal.defs _ _).mono
    (fun _ h c => ⟨(h c).1.trans ((val_main_v23_eq (F := Ideal) _ _).trans (result_eq _ _)), (h c).2⟩)
    (Cert.ReferenceIdeal.Value.run (F := Ideal) m ρ)

end Cert.ReferenceIdeal.RefValue

end
-- ==== Proof.lean ====
/-
  The certificate. Two clouds of 16384 points in three coordinates; the kernel computes, in two calls of one Pallas kernel
  with the clouds exchanged, each point's clamped squared distance to the nearest point of the other cloud — a 16 × 16 grid
  of 1024 × 1024 tiles, the running minimum of a row of tiles kept in a scratch buffer — and adds the two means; the
  reference takes the minima of one 16384 × 16384 distance matrix along both axes.

  The three frames: the kernel's program runs as five items (host operations, a kernel region, host operations, a kernel
  region, host operations), every unscoped buffer named at each boundary; the argument arrays are written by none of
  them. The word-level program and its idealization are the same text read at two instances, so one run serves both. The
  reference is host operations only.

  The ideal pass rewrote nothing, so there is nothing to preserve.

  On the extended reals both programs compute the specification's loss (Proof/Spec.lean): a change of float format is the
  identity, the matrix unit's product into a zero accumulator and the host's dot_general are one sum, a minimum over
  sixteen tiles of the minima within each tile is the minimum over the row, and the second call's distance
  |t|² + |p|² − 2·⟨t, p⟩ is the reference's |p|² + |t|² − 2·⟨p, t⟩ because addition and multiplication of extended reals
  commute. No finiteness of the inputs is used.
-/
import proofs.«141939_j80676665688371_1_alg».proof.Defs
import proofs.«141939_j80676665688371_1_alg».proof.Proof.Gen.Kernel
import proofs.«141939_j80676665688371_1_alg».proof.Proof.Gen.KernelIdeal
import proofs.«141939_j80676665688371_1_alg».proof.Proof.Gen.ReferenceIdeal
import proofs.«141939_j80676665688371_1_alg».proof.Proof.Gen.Pre_finite_inputs
import proofs.«141939_j80676665688371_1_alg».proof.Proof.Kernel.Run
import proofs.«141939_j80676665688371_1_alg».proof.Proof.KernelIdeal.Run
import proofs.«141939_j80676665688371_1_alg».proof.Proof.KernelIdeal.Result
import proofs.«141939_j80676665688371_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel's frame. -/
theorem frame_k : @Cert.frame_Kernel Cert.Kernel.Gen.facts Cert.Pre_finite_inputs.Gen.facts :=
  fun m ρ _ => Cert.Kernel.Hand.frame (F := Bits) m ρ

/-- The idealized kernel's frame. -/
theorem frame_ki : @Cert.frame_KernelIdeal Cert.KernelIdeal.Gen.facts Cert.Pre_finite_inputs.Gen.facts :=
  fun m ρ _ => Cert.KernelIdeal.Hand.frame (F := Ideal) m ρ

/-- The reference's frame: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both idealized programs end with the loss of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => fun _ => Cert.Spec.loss (Cert.KernelIdeal.Hand.argP m c) (Cert.KernelIdeal.Hand.argT m c), ?_, ?_⟩
  · exact (θ_run Cert.KernelIdeal.defs _ _).mono (fun r h c =>
      ⟨(h c _ (Cert.KernelIdeal.Hand.mem_uc Cert.KernelIdeal.main_v16 (by decide))).trans (Cert.KernelIdeal.Hand.W5_result m c),
       (h c _ (Cert.KernelIdeal.Hand.mem_uc Cert.KernelIdeal.main_arg0 (by decide))).trans (Cert.KernelIdeal.Hand.W5_main_arg0 m c),
       (h c _ (Cert.KernelIdeal.Hand.mem_uc Cert.KernelIdeal.main_arg1 (by decide))).trans (Cert.KernelIdeal.Hand.W5_main_arg1 m c)⟩)
      (Cert.KernelIdeal.Hand.run_all (F := Ideal) m ρ)
  · refine (θ_run Cert.ReferenceIdeal.defs _ _).mono (fun _ h c => ⟨?_, (h c).2⟩)
      (Cert.ReferenceIdeal.RefValue.run_loss m' ρ')
    rw [(h c).1, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
